-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S32000x1024 : Shape := ⟨2, ![32000, 1024]⟩
abbrev S4096 : Shape := ⟨1, ![4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S32000x1024 : S_.BroadcastsInDim S32000x1024 (![] : Fin 0 → Fin S32000x1024.rank)
  reducesTo_S32000x1024_S_d0_1 : S32000x1024.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x1024 .f32) (main_arg1 : FVec F S32000x1024 .f32) (main_arg2 : IVec S4096 32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S32000x1024 .f32 := Host.absf main_arg1
  let main_cst_0 : FVec F S_ .f32 := constant S_ .f32 0x7F800000#32
  let main_v5 : FVec F S32000x1024 .f32 := broadcastInDim S32000x1024 ![] bcast_S_S32000x1024 main_cst_0
  let main_v6 : IVec S32000x1024 1 := cmpf .olt main_v4 main_v5
  let main_c_1 : IVec S_ 1 := constantI S_ 1 1#1
  let main_v7 : IVec S_ 1 := (fun x v => Host.reduce IntOp.andi x v reducesTo_S32000x1024_S_d0_1 h_S_) main_v6 main_c_1
  let main_v8 : IVec S_ 1 := andi main_v3 main_v7
  let main_c_2 : IVec S_ 32 := constantI S_ 32 0#32
  let main_v9 : IVec S4096 32 := broadcastInDim S4096 ![] bcast_S_S4096 main_c_2
  let main_v10 : IVec S4096 1 := cmpi .sge main_arg2 main_v9
  let main_c_3 : IVec S_ 32 := constantI S_ 32 32000#32
  let main_v11 : IVec S4096 32 := broadcastInDim S4096 ![] bcast_S_S4096 main_c_3
  let main_v12 : IVec S4096 1 := cmpi .slt main_arg2 main_v11
  let main_v13 : IVec S4096 1 := andi main_v10 main_v12
  let main_c_4 : IVec S_ 1 := constantI S_ 1 1#1
  let main_v14 : IVec S_ 1 := (fun x v => Host.reduce IntOp.andi x v reducesTo_S4096_S_d0 h_S_) main_v13 main_c_4
  let main_v15 : IVec S_ 1 := andi main_v8 main_v14
  main_v15
-- ==== Kernel.lean ====
abbrev S4096x1024 : Shape := ⟨2, ![4096, 1024]⟩
abbrev S32000x1024 : Shape := ⟨2, ![32000, 1024]⟩
abbrev S4096 : Shape := ⟨1, ![4096]⟩
abbrev S4096x1 : Shape := ⟨2, ![4096, 1]⟩
abbrev S1024x1024 : Shape := ⟨2, ![1024, 1024]⟩
abbrev S640x1024 : Shape := ⟨2, ![640, 1024]⟩
abbrev S1024x1 : Shape := ⟨2, ![1024, 1]⟩
abbrev S1024x640 : Shape := ⟨2, ![1024, 640]⟩
abbrev S1024 : Shape := ⟨1, ![1024]⟩
abbrev S_ : Shape := ⟨0, ![]⟩

abbrev nBuf : Space → Nat
  | .hbm => 21
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S32000x1024, .f32⟩
  | .hbm, ⟨2, _⟩ => ⟨S4096, .i32⟩
  | .hbm, ⟨3, _⟩ => ⟨S4096x1, .i32⟩
  | .hbm, ⟨4, _⟩ => ⟨S4096x1, .f32⟩
  | .hbm, ⟨5, _⟩ => ⟨S4096x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S640x1024, .f32⟩
  | .local _ .vmem, ⟨3, _⟩ => ⟨S640x1024, .f32⟩
  | .local _ .vmem, ⟨4, _⟩ => ⟨S1024x1, .i32⟩
  | .local _ .vmem, ⟨5, _⟩ => ⟨S1024x1, .i32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_cst_3 : Ref sig .tc := ⟨.hbm, 14, rfl⟩
abbrev main_v6 : Ref sig .tc := ⟨.hbm, 15, rfl⟩
abbrev main_cst_4 : Ref sig .tc := ⟨.hbm, 16, rfl⟩
abbrev main_v7 : Ref sig .tc := ⟨.hbm, 17, rfl⟩
abbrev main_cst_5 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 50], ![false, false]⟩

def k0_cond2 (i : grid0.Coords) : BitVec 1 :=
  let arg1 : BitVec 32 := BitVec.ofNat 32 (i 1).val
  let c49_i32 : BitVec 32 := 49#32
  let v53 : BitVec 1 := Scalar.cmpi .eq arg1 c49_i32
  let v54 : BitVec 32 := Scalar.extui v53
  let c0_i32_29 : BitVec 32 := 0#32
  let v55 : BitVec 1 := Scalar.cmpi .ne v54 c0_i32_29
  v55

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S640x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S4096_S4096x1 : S4096.ShapeCasts S4096x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S640x1024_S640x1024_0_0 : ∀ a, (![0, 0] : Fin 2 → Nat) a + S640x1024.size a ≤ S640x1024.size a
  h_S640x1024 : 0 < S640x1024.numel
  iota_S1024x640_d1_w32 : S1024x640.Iotas .tc 32 [1]
  broadcasts_S1024x1_S1024x640 : S1024x1.Broadcasts S1024x640
  reduces_S1024x640_S1024 : S1024x640.Reduces [1] S1024
  shapeCasts_S1024_S1024x1 : S1024.ShapeCasts S1024x1
  reducesTo_S4096x1_S_d0_1 : S4096x1.ReducesTo [0, 1] S_
  h_S_ : 0 < S_.numel
  dot_S1024x1024_S640x1024_S1024x640_1_1_0_0_n_n_wf : DotDims.WF S1024x1024 S640x1024 S1024x640 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S640x1024.size a ≤ S32000x1024.size a
  hwx0_1 : ∀ i : grid0.Coords, EltTy.bits .f32 = 32 ∨ (Rect.block (s := S32000x1024) S640x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .i32 = 32 ∨ (Rect.block (s := S4096x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S4096x1.size a
  hwx0_3 : ∀ i : grid0.Coords, EltTy.bits .f32 = 32 ∨ (Rect.block (s := S4096x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S4096x1.size a
  hwx0_4 : ∀ i : grid0.Coords, EltTy.bits .f32 = 32 ∨ (Rect.block (s := S4096x1) S1024x1.size (cc0_transform_4 i) (hinb0_4 i)).WholeWords (EltTy.packing .f32)

variable [Facts₀]

def dot_S1024x1024_S640x1024_S1024x640_1_1_0_0_n_n : DotDims S1024x1024 S640x1024 S1024x640 where
  lhsContracting := [1]
  rhsContracting := [1]
  lhsNonContracting := [0]
  rhsNonContracting := [0]
  lhsBatch := []
  rhsBatch := []
  wf := dot_S1024x1024_S640x1024_S1024x640_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S640x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S1024x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x1024 : Shape := ⟨2, ![4096, 1024]⟩
abbrev S32000x1024 : Shape := ⟨2, ![32000, 1024]⟩
abbrev S4096 : Shape := ⟨1, ![4096]⟩
abbrev S4096x32000 : Shape := ⟨2, ![4096, 32000]⟩
abbrev S_ : Shape := ⟨0, ![]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 57
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S32000x1024, .f32⟩
  | .hbm, ⟨2, _⟩ => ⟨S4096, .i32⟩
  | .hbm, ⟨3, _⟩ => ⟨S4096x32000, .f32⟩
  | .hbm, ⟨4, _⟩ => ⟨S_, .f32⟩
  | .hbm, ⟨5, _⟩ => ⟨S4096, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S4096x1, .f32⟩
  | .hbm, ⟨10, _⟩ => ⟨S4096x32000, .f32⟩
  | .hbm, ⟨11, _⟩ => ⟨S4096x32000, .f32⟩
  | .hbm, ⟨12, _⟩ => ⟨S4096x32000, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S4096x32000, .f32⟩
  | .hbm, ⟨18, _⟩ => ⟨S4096x32000, .f32⟩
  | .hbm, ⟨19, _⟩ => ⟨S4096x1, .i32⟩
  | .hbm, ⟨20, _⟩ => ⟨S_, .i32⟩
  | .hbm, ⟨21, _⟩ => ⟨S4096x1, .i32⟩
  | .hbm, ⟨22, _⟩ => ⟨S4096x1, .i1⟩
  | .hbm, ⟨23, _⟩ => ⟨S_, .i32⟩
  | .hbm, ⟨24, _⟩ => ⟨S4096x1, .i32⟩
  | .hbm, ⟨25, _⟩ => ⟨S4096x1, .i32⟩
  | .hbm, ⟨26, _⟩ => ⟨S4096x1, .i32⟩
  | .hbm, ⟨27, _⟩ => ⟨S4096x1x1, .i32⟩
  | .hbm, ⟨28, _⟩ => ⟨S1, .i32⟩
  | .hbm, ⟨29, _⟩ => ⟨S_, .i32⟩
  | .hbm, ⟨30, _⟩ => ⟨S4096x1x1, .i32⟩
  | .hbm, ⟨31, _⟩ => ⟨S4096x1x1, .i1⟩
  | .hbm, ⟨32, _⟩ => ⟨S1x1x1, .i32⟩
  | .hbm, ⟨33, _⟩ => ⟨S4096x1x1, .i32⟩
  | .hbm, ⟨34, _⟩ => ⟨S4096x1x1, .i1⟩
  | .hbm, ⟨35, _⟩ => ⟨S4096x1x1, .i1⟩
  | .hbm, ⟨36, _⟩ => ⟨S_, .i1⟩
  | .hbm, ⟨37, _⟩ => ⟨S4096x1, .i1⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v1 : Ref sig .tc := ⟨.hbm, 18, rfl⟩
abbrev main_v2 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_c_2 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_3 : Ref sig .tc := ⟨.hbm, 36, rfl⟩
abbrev main_call1_v12 : Ref sig .tc := ⟨.hbm, 37, rfl⟩
abbrev main_call1_v13 : Ref sig .tc := ⟨.hbm, 38, rfl⟩
abbrev main_call1_cst : Ref sig .tc := ⟨.hbm, 39, rfl⟩
abbrev main_call1_v14 : Ref sig .tc := ⟨.hbm, 40, rfl⟩
abbrev main_v3 : Ref sig .tc := ⟨.hbm, 41, rfl⟩
abbrev main_v4 : Ref sig .tc := ⟨.hbm, 42, rfl⟩
abbrev main_cst : Ref sig .tc := ⟨.hbm, 43, rfl⟩
abbrev main_v5 : Ref sig .tc := ⟨.hbm, 44, rfl⟩
abbrev main_cst_0 : Ref sig .tc := ⟨.hbm, 45, rfl⟩
abbrev main_v6 : Ref sig .tc := ⟨.hbm, 46, rfl⟩
abbrev main_v7 : Ref sig .tc := ⟨.hbm, 47, rfl⟩
abbrev main_cst_1 : Ref sig .tc := ⟨.hbm, 48, rfl⟩
abbrev main_v8 : Ref sig .tc := ⟨.hbm, 49, rfl⟩
abbrev main_cst_2 : Ref sig .tc := ⟨.hbm, 50, rfl⟩
abbrev main_v9 : Ref sig .tc := ⟨.hbm, 51, rfl⟩
abbrev main_cst_3 : Ref sig .tc := ⟨.hbm, 52, rfl⟩
abbrev main_v10 : Ref sig .tc := ⟨.hbm, 53, rfl⟩
abbrev main_cst_4 : Ref sig .tc := ⟨.hbm, 54, rfl⟩
abbrev main_v11 : Ref sig .tc := ⟨.hbm, 55, rfl⟩
abbrev main_v12 : Ref sig .tc := ⟨.hbm, 56, rfl⟩

abbrev nD : Nat := 1
abbrev τ : Topo := Topo.v7x

variable {F : FTy → Type} [FloatOps F]

class Facts₀ : Prop where
  reducesTo_S4096x32000_S4096_d1 : S4096x32000.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x32000_0_1 : S4096x1.BroadcastsInDim S4096x32000 (![0, 1] : Fin 2 → Fin S4096x32000.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  reducesTo_S4096_S_d0 : S4096.ReducesTo [0] S_
  reducesTo_S4096x32000_S_d0_1 : S4096x32000.ReducesTo [0, 1] S_
  dot_S4096x1024_S32000x1024_S4096x32000_1_1_0_0_n_n_wf : DotDims.WF S4096x1024 S32000x1024 S4096x32000 [1] [1] [0] [0] [] []
  gather_S4096x32000_S4096x1x1_S4096x1_n_1_0_0_1_2_11_wf : GatherDims.WF S4096x32000 S4096x1x1 S4096x1 [] [1] [0] [1] [0] 2 ![1, 1]

variable [Facts₀]

def dot_S4096x1024_S32000x1024_S4096x32000_1_1_0_0_n_n : DotDims S4096x1024 S32000x1024 S4096x32000 where
  lhsContracting := [1]
  rhsContracting := [1]
  lhsNonContracting := [0]
  rhsNonContracting := [0]
  lhsBatch := []
  rhsBatch := []
  wf := dot_S4096x1024_S32000x1024_S4096x32000_1_1_0_0_n_n_wf
def gather_S4096x32000_S4096x1x1_S4096x1_n_1_0_0_1_2_11 : GatherDims S4096x32000 S4096x1x1 S4096x1 where
  offsetDims := []
  collapsedSliceDims := [1]
  operandBatchingDims := [0]
  startIndicesBatchingDims := [0]
  startIndexMap := [1]
  indexVectorDim := 2
  sliceSizes := ![1, 1]
  wf := gather_S4096x32000_S4096x1x1_S4096x1_n_1_0_0_1_2_11_wf

class Facts : Prop extends Facts₀ where

variable [Facts]
-- ==== Proof.KStepDefs.lean ====
/-
  One grid point's arithmetic, named: from the two operand blocks, the label block and what the four scratch
  buffers held, what the point leaves in each scratch buffer, and what the last point of a row block writes to the
  two outputs. Each is the composition of the body's pure values; nothing is proved here.
-/
import proofs.«409617_j66133906423975_1_alg».proof.Proof.Gen.KernelIdeal.Skeleton

noncomputable section

namespace Cert.KernelIdeal.XV

open Idealize.ShloMosaic Cert.KernelIdeal Cert.KernelIdeal.Gen

variable {F : FTy → Type} [FloatOps F]

/-- What the reset stores: `-∞` for the running maximum, zero for the three sums. -/
def initMx : FVec F S1024x1 .f32 := k0_pay8
def initSe : FVec F S1024x1 .f32 := k0_pay9
def initSl : FVec F S1024x1 .f32 := k0_pay10
def initTr : FVec F S1024x1 .f32 := k0_pay11

/-- The new running maximum: the larger of the old one and the block's row maxima. -/
def newMx (x0 : Vec F S1024x1024 .f32) (x1 : Vec F S640x1024 .f32) (pm : Vec F S1024x1 .f32) : FVec F S1024x1 .f32 :=
  k0_pay2 (k0_pay15 x0 x1 pm)

/-- The new sum of exponentials: the old one rescaled to the new maximum, plus the block's. -/
def newSe (x0 : Vec F S1024x1024 .f32) (x1 : Vec F S640x1024 .f32) (pm ps : Vec F S1024x1 .f32) : FVec F S1024x1 .f32 :=
  k0_pay1 (k0_pay16 x0 x1 pm pm ps) (k0_pay17 x0 x1 pm)

/-- The new sum of logits. -/
def newSl (x0 : Vec F S1024x1024 .f32) (x1 : Vec F S640x1024 .f32) (pl : Vec F S1024x1 .f32) : FVec F S1024x1 .f32 :=
  k0_pay3 (k0_pay14 x0 x1) pl

/-- The new logit at the label: the old one plus the block's masked row sums. -/
def newTr (i : grid0.Coords) (x0 : Vec F S1024x1024 .f32) (x1 : Vec F S640x1024 .f32) (x2 : Vec F S1024x1 .i32)
    (pt : Vec F S1024x1 .f32) : FVec F S1024x1 .f32 :=
  k0_pay4 (k0_pay13 i x0 x1 x2) pt

/-- The first output: maximum plus log of the sum of exponentials, minus the logit at the label. -/
def outNll (mx se tr : Vec F S1024x1 .f32) : FVec F S1024x1 .f32 := k0_pay6 mx se tr

/-- The second output: the sum of logits minus 32000 times (maximum plus log of the sum of exponentials). -/
def outLp (mx se sl : Vec F S1024x1 .f32) : FVec F S1024x1 .f32 := k0_pay7 mx se sl

end Cert.KernelIdeal.XV

end
-- ==== Proof.KPieces.lean ====
/-
  What one grid point leaves in the four scratch buffers and, at the last column block, in the two output blocks:
  the body's one covering store per buffer (after the reset, at the first column block, two stores of which the later
  covers), its stored value read back as the point's arithmetic of `KStepDefs`. A load of a scratch buffer after a
  store into it in the same point reads what was stored.
-/
import proofs.«409617_j66133906423975_1_alg».proof.Proof.Gen.KernelIdeal.Frame
import proofs.«409617_j66133906423975_1_alg».proof.Proof.KStepDefs
import Idealize.ShloMosaic.Lib.Pipeline.Value
import Idealize.ShloMosaic.Lib.Tactic

noncomputable section

namespace Cert.KernelIdeal.XV

open Idealize.ShloMosaic Idealize.ShloMosaic.TcCoe Idealize.SL.Sem
open Cert.KernelIdeal Cert.KernelIdeal.Gen

variable {F : FTy → Type} [FloatOps F]
variable (c : Dev nD) (i : grid0.Coords)
  (a2 : Memref sig .tc .vmem S1024x1024 .f32) (h2 : a2.IsWhole) (a3 : Memref sig .tc .vmem S640x1024 .f32) (h3 : a3.IsWhole)
  (a4 : Memref sig .tc .vmem S1024x1 .i32) (h4 : a4.IsWhole) (a5 : Memref sig .tc .vmem S1024x1 .f32) (h5 : a5.IsWhole)
  (a6 : Memref sig .tc .vmem S1024x1 .f32) (h6 : a6.IsWhole) (a7 : Memref sig .tc .vmem S1024x1 .f32) (h7 : a7.IsWhole)
  (a8 : Memref sig .tc .vmem S1024x1 .f32) (h8 : a8.IsWhole) (a9 : Memref sig .tc .vmem S1024x1 .f32) (h9 : a9.IsWhole)
  (a10 : Memref sig .tc .vmem S1024x1 .f32) (h10 : a10.IsWhole)

theorem hz : (![0, 0] : Fin 2 → Nat) = fun _ => 0 := funext fun a => by fin_cases a <;> rfl

/-- The first column block: the running maximum after the reset is the block's row maximum against `-∞`. -/
theorem sA0 (hc0 : cond0_0 i) (hc1 : ¬cond0_1 i) (x0 : Vec F S1024x1024 .f32) (x1 : Vec F S640x1024 .f32) (x2 : Vec F S1024x1 .i32) :
    sout0_A_0 c i a2 h2 a3 h3 a4 h4 a5 h5 a6 h6 a7 h7 a8 h8 a9 h9 a10 h10 hc0 hc1 x0 x1 x2 = newMx x0 x1 initMx := by
  unfold sout0_A_0
  rw [View.read_writes_eq_canon _ _ _ (scover0_A_0 c i a2 h2 a3 h3 a4 h4 a5 h5 a6 h6 a7 h7 a8 h8 a9 h9 a10 h10 hc0 hc1 x0 x1 x2)]
  unfold kernelRun0_A
  dsimp only
  sl_unfold_words
  rw [View.canon_cons_unit_zero (S := S1024x1) hz]
  unfold newMx initMx
  simp only [View.readAt_eq_ld, h2.read_unread, h3.read_unread, h4.read_unread, h7.read_unread, h8.read_unread, h9.read_unread, h10.read_unread, View.ld_unit_zero (S := S1024x1) hz, View.ld_unit_zero (S := S1024x1024) hz, View.ld_unit_zero (S := S640x1024) hz, View.readCov_unit_zero (S := S1024x1) _ hz, shapeCast_self]

/-- The first column block: the sum of exponentials from the reset values. -/
theorem sA1 (hc0 : cond0_0 i) (hc1 : ¬cond0_1 i) (x0 : Vec F S1024x1024 .f32) (x1 : Vec F S640x1024 .f32) (x2 : Vec F S1024x1 .i32) :
    sout0_A_1 c i a2 h2 a3 h3 a4 h4 a5 h5 a6 h6 a7 h7 a8 h8 a9 h9 a10 h10 hc0 hc1 x0 x1 x2 = newSe x0 x1 initMx initSe := by
  unfold sout0_A_1
  rw [View.read_writes_eq_canon _ _ _ (scover0_A_1 c i a2 h2 a3 h3 a4 h4 a5 h5 a6 h6 a7 h7 a8 h8 a9 h9 a10 h10 hc0 hc1 x0 x1 x2)]
  unfold kernelRun0_A
  dsimp only
  sl_unfold_words
  rw [View.canon_cons_unit_zero (S := S1024x1) hz]
  unfold newSe initMx initSe
  simp only [View.readAt_eq_ld, h2.read_unread, h3.read_unread, h4.read_unread, h7.read_unread, h8.read_unread, h9.read_unread, h10.read_unread, View.ld_unit_zero (S := S1024x1) hz, View.ld_unit_zero (S := S1024x1024) hz, View.ld_unit_zero (S := S640x1024) hz, View.readCov_unit_zero (S := S1024x1) _ hz, shapeCast_self]

/-- The first column block: the sum of logits from zero. -/
theorem sA2 (hc0 : cond0_0 i) (hc1 : ¬cond0_1 i) (x0 : Vec F S1024x1024 .f32) (x1 : Vec F S640x1024 .f32) (x2 : Vec F S1024x1 .i32) :
    sout0_A_2 c i a2 h2 a3 h3 a4 h4 a5 h5 a6 h6 a7 h7 a8 h8 a9 h9 a10 h10 hc0 hc1 x0 x1 x2 = newSl x0 x1 initSl := by
  unfold sout0_A_2
  rw [View.read_writes_eq_canon _ _ _ (scover0_A_2 c i a2 h2 a3 h3 a4 h4 a5 h5 a6 h6 a7 h7 a8 h8 a9 h9 a10 h10 hc0 hc1 x0 x1 x2)]
  unfold kernelRun0_A
  dsimp only
  sl_unfold_words
  rw [View.canon_cons_unit_zero (S := S1024x1) hz]
  unfold newSl initSl
  simp only [View.readAt_eq_ld, h2.read_unread, h3.read_unread, h4.read_unread, h7.read_unread, h8.read_unread, h9.read_unread, h10.read_unread, View.ld_unit_zero (S := S1024x1) hz, View.ld_unit_zero (S := S1024x1024) hz, View.ld_unit_zero (S := S640x1024) hz, View.readCov_unit_zero (S := S1024x1) _ hz, shapeCast_self]

/-- The first column block: the label's logit from zero. -/
theorem sA3 (hc0 : cond0_0 i) (hc1 : ¬cond0_1 i) (x0 : Vec F S1024x1024 .f32) (x1 : Vec F S640x1024 .f32) (x2 : Vec F S1024x1 .i32) :
    sout0_A_3 c i a2 h2 a3 h3 a4 h4 a5 h5 a6 h6 a7 h7 a8 h8 a9 h9 a10 h10 hc0 hc1 x0 x1 x2 = newTr i x0 x1 x2 initTr := by
  unfold sout0_A_3
  rw [View.read_writes_eq_canon _ _ _ (scover0_A_3 c i a2 h2 a3 h3 a4 h4 a5 h5 a6 h6 a7 h7 a8 h8 a9 h9 a10 h10 hc0 hc1 x0 x1 x2)]
  unfold kernelRun0_A
  dsimp only
  sl_unfold_words
  rw [View.canon_cons_unit_zero (S := S1024x1) hz]
  unfold newTr initTr
  simp only [View.readAt_eq_ld, h2.read_unread, h3.read_unread, h4.read_unread, h7.read_unread, h8.read_unread, h9.read_unread, h10.read_unread, View.ld_unit_zero (S := S1024x1) hz, View.ld_unit_zero (S := S1024x1024) hz, View.ld_unit_zero (S := S640x1024) hz, View.readCov_unit_zero (S := S1024x1) _ hz, shapeCast_self]

/-- A middle column block: the running maximum over what the scratch held. -/
theorem sB0 (hc0 : ¬cond0_0 i) (hc1 : ¬cond0_1 i) (x0 : Vec F S1024x1024 .f32) (x1 : Vec F S640x1024 .f32) (x2 : Vec F S1024x1 .i32)
    (xs0 xs1 xs2 xs3 : Vec F S1024x1 .f32) :
    sout0_B_0 c i a2 h2 a3 h3 a4 h4 a5 h5 a6 h6 a7 h7 a8 h8 a9 h9 a10 h10 hc0 hc1 x0 x1 x2 xs0 xs1 xs2 xs3 = newMx x0 x1 xs0 := by
  unfold sout0_B_0
  rw [View.read_writes_eq_canon _ _ _ (scover0_B_0 c i a2 h2 a3 h3 a4 h4 a5 h5 a6 h6 a7 h7 a8 h8 a9 h9 a10 h10 hc0 hc1 x0 x1 x2 xs0 xs1 xs2 xs3)]
  unfold kernelRun0_B
  dsimp only
  sl_unfold_words
  rw [View.canon_unit_zero hz]
  unfold newMx
  simp only [View.readAt_eq_ld, h2.read_unread, h3.read_unread, h4.read_unread, h7.read_unread, h8.read_unread, h9.read_unread, h10.read_unread, View.ld_unit_zero (S := S1024x1) hz, View.ld_unit_zero (S := S1024x1024) hz, View.ld_unit_zero (S := S640x1024) hz, View.readCov_unit_zero (S := S1024x1) _ hz, shapeCast_self]

/-- A middle column block: the sum of exponentials, rescaled and extended. -/
theorem sB1 (hc0 : ¬cond0_0 i) (hc1 : ¬cond0_1 i) (x0 : Vec F S1024x1024 .f32) (x1 : Vec F S640x1024 .f32) (x2 : Vec F S1024x1 .i32)
    (xs0 xs1 xs2 xs3 : Vec F S1024x1 .f32) :
    sout0_B_1 c i a2 h2 a3 h3 a4 h4 a5 h5 a6 h6 a7 h7 a8 h8 a9 h9 a10 h10 hc0 hc1 x0 x1 x2 xs0 xs1 xs2 xs3 = newSe x0 x1 xs0 xs1 := by
  unfold sout0_B_1
  rw [View.read_writes_eq_canon _ _ _ (scover0_B_1 c i a2 h2 a3 h3 a4 h4 a5 h5 a6 h6 a7 h7 a8 h8 a9 h9 a10 h10 hc0 hc1 x0 x1 x2 xs0 xs1 xs2 xs3)]
  unfold kernelRun0_B
  dsimp only
  sl_unfold_words
  rw [View.canon_unit_zero hz]
  unfold newSe
  simp only [View.readAt_eq_ld, h2.read_unread, h3.read_unread, h4.read_unread, h7.read_unread, h8.read_unread, h9.read_unread, h10.read_unread, View.ld_unit_zero (S := S1024x1) hz, View.ld_unit_zero (S := S1024x1024) hz, View.ld_unit_zero (S := S640x1024) hz, View.readCov_unit_zero (S := S1024x1) _ hz, shapeCast_self]

/-- A middle column block: the sum of logits extended. -/
theorem sB2 (hc0 : ¬cond0_0 i) (hc1 : ¬cond0_1 i) (x0 : Vec F S1024x1024 .f32) (x1 : Vec F S640x1024 .f32) (x2 : Vec F S1024x1 .i32)
    (xs0 xs1 xs2 xs3 : Vec F S1024x1 .f32) :
    sout0_B_2 c i a2 h2 a3 h3 a4 h4 a5 h5 a6 h6 a7 h7 a8 h8 a9 h9 a10 h10 hc0 hc1 x0 x1 x2 xs0 xs1 xs2 xs3 = newSl x0 x1 xs2 := by
  unfold sout0_B_2
  rw [View.read_writes_eq_canon _ _ _ (scover0_B_2 c i a2 h2 a3 h3 a4 h4 a5 h5 a6 h6 a7 h7 a8 h8 a9 h9 a10 h10 hc0 hc1 x0 x1 x2 xs0 xs1 xs2 xs3)]
  unfold kernelRun0_B
  dsimp only
  sl_unfold_words
  rw [View.canon_unit_zero hz]
  unfold newSl
  simp only [View.readAt_eq_ld, h2.read_unread, h3.read_unread, h4.read_unread, h7.read_unread, h8.read_unread, h9.read_unread, h10.read_unread, View.ld_unit_zero (S := S1024x1) hz, View.ld_unit_zero (S := S1024x1024) hz, View.ld_unit_zero (S := S640x1024) hz, View.readCov_unit_zero (S := S1024x1) _ hz, shapeCast_self]

/-- A middle column block: the label's logit extended. -/
theorem sB3 (hc0 : ¬cond0_0 i) (hc1 : ¬cond0_1 i) (x0 : Vec F S1024x1024 .f32) (x1 : Vec F S640x1024 .f32) (x2 : Vec F S1024x1 .i32)
    (xs0 xs1 xs2 xs3 : Vec F S1024x1 .f32) :
    sout0_B_3 c i a2 h2 a3 h3 a4 h4 a5 h5 a6 h6 a7 h7 a8 h8 a9 h9 a10 h10 hc0 hc1 x0 x1 x2 xs0 xs1 xs2 xs3 = newTr i x0 x1 x2 xs3 := by
  unfold sout0_B_3
  rw [View.read_writes_eq_canon _ _ _ (scover0_B_3 c i a2 h2 a3 h3 a4 h4 a5 h5 a6 h6 a7 h7 a8 h8 a9 h9 a10 h10 hc0 hc1 x0 x1 x2 xs0 xs1 xs2 xs3)]
  unfold kernelRun0_B
  dsimp only
  sl_unfold_words
  rw [View.canon_unit_zero hz]
  unfold newTr
  simp only [View.readAt_eq_ld, h2.read_unread, h3.read_unread, h4.read_unread, h7.read_unread, h8.read_unread, h9.read_unread, h10.read_unread, View.ld_unit_zero (S := S1024x1) hz, View.ld_unit_zero (S := S1024x1024) hz, View.ld_unit_zero (S := S640x1024) hz, View.readCov_unit_zero (S := S1024x1) _ hz, shapeCast_self]

/-- The last column block updates the scratch as a middle one does: the running maximum. -/
theorem sC0 (hc0 : ¬cond0_0 i) (hc1 : cond0_1 i) (x0 : Vec F S1024x1024 .f32) (x1 : Vec F S640x1024 .f32) (x2 : Vec F S1024x1 .i32)
    (xs0 xs1 xs2 xs3 : Vec F S1024x1 .f32) :
    sout0_C_0 c i a2 h2 a3 h3 a4 h4 a5 h5 a6 h6 a7 h7 a8 h8 a9 h9 a10 h10 hc0 hc1 x0 x1 x2 xs0 xs1 xs2 xs3 = newMx x0 x1 xs0 := by
  unfold sout0_C_0
  rw [View.read_writes_eq_canon _ _ _ (scover0_C_0 c i a2 h2 a3 h3 a4 h4 a5 h5 a6 h6 a7 h7 a8 h8 a9 h9 a10 h10 hc0 hc1 x0 x1 x2 xs0 xs1 xs2 xs3)]
  unfold kernelRun0_C
  dsimp only
  sl_unfold_words
  rw [View.canon_unit_zero hz]
  unfold newMx
  simp only [View.readAt_eq_ld, h2.read_unread, h3.read_unread, h4.read_unread, h7.read_unread, h8.read_unread, h9.read_unread, h10.read_unread, View.ld_unit_zero (S := S1024x1) hz, View.ld_unit_zero (S := S1024x1024) hz, View.ld_unit_zero (S := S640x1024) hz, View.readCov_unit_zero (S := S1024x1) _ hz, shapeCast_self]

/-- The last column block: the sum of exponentials. -/
theorem sC1 (hc0 : ¬cond0_0 i) (hc1 : cond0_1 i) (x0 : Vec F S1024x1024 .f32) (x1 : Vec F S640x1024 .f32) (x2 : Vec F S1024x1 .i32)
    (xs0 xs1 xs2 xs3 : Vec F S1024x1 .f32) :
    sout0_C_1 c i a2 h2 a3 h3 a4 h4 a5 h5 a6 h6 a7 h7 a8 h8 a9 h9 a10 h10 hc0 hc1 x0 x1 x2 xs0 xs1 xs2 xs3 = newSe x0 x1 xs0 xs1 := by
  unfold sout0_C_1
  rw [View.read_writes_eq_canon _ _ _ (scover0_C_1 c i a2 h2 a3 h3 a4 h4 a5 h5 a6 h6 a7 h7 a8 h8 a9 h9 a10 h10 hc0 hc1 x0 x1 x2 xs0 xs1 xs2 xs3)]
  unfold kernelRun0_C
  dsimp only
  sl_unfold_words
  rw [View.canon_unit_zero hz]
  unfold newSe
  simp only [View.readAt_eq_ld, h2.read_unread, h3.read_unread, h4.read_unread, h7.read_unread, h8.read_unread, h9.read_unread, h10.read_unread, View.ld_unit_zero (S := S1024x1) hz, View.ld_unit_zero (S := S1024x1024) hz, View.ld_unit_zero (S := S640x1024) hz, View.readCov_unit_zero (S := S1024x1) _ hz, shapeCast_self]

/-- The last column block: the sum of logits. -/
theorem sC2 (hc0 : ¬cond0_0 i) (hc1 : cond0_1 i) (x0 : Vec F S1024x1024 .f32) (x1 : Vec F S640x1024 .f32) (x2 : Vec F S1024x1 .i32)
    (xs0 xs1 xs2 xs3 : Vec F S1024x1 .f32) :
    sout0_C_2 c i a2 h2 a3 h3 a4 h4 a5 h5 a6 h6 a7 h7 a8 h8 a9 h9 a10 h10 hc0 hc1 x0 x1 x2 xs0 xs1 xs2 xs3 = newSl x0 x1 xs2 := by
  unfold sout0_C_2
  rw [View.read_writes_eq_canon _ _ _ (scover0_C_2 c i a2 h2 a3 h3 a4 h4 a5 h5 a6 h6 a7 h7 a8 h8 a9 h9 a10 h10 hc0 hc1 x0 x1 x2 xs0 xs1 xs2 xs3)]
  unfold kernelRun0_C
  dsimp only
  sl_unfold_words
  rw [View.canon_unit_zero hz]
  unfold newSl
  simp only [View.readAt_eq_ld, h2.read_unread, h3.read_unread, h4.read_unread, h7.read_unread, h8.read_unread, h9.read_unread, h10.read_unread, View.ld_unit_zero (S := S1024x1) hz, View.ld_unit_zero (S := S1024x1024) hz, View.ld_unit_zero (S := S640x1024) hz, View.readCov_unit_zero (S := S1024x1) _ hz, shapeCast_self]

/-- The last column block: the label's logit. -/
theorem sC3 (hc0 : ¬cond0_0 i) (hc1 : cond0_1 i) (x0 : Vec F S1024x1024 .f32) (x1 : Vec F S640x1024 .f32) (x2 : Vec F S1024x1 .i32)
    (xs0 xs1 xs2 xs3 : Vec F S1024x1 .f32) :
    sout0_C_3 c i a2 h2 a3 h3 a4 h4 a5 h5 a6 h6 a7 h7 a8 h8 a9 h9 a10 h10 hc0 hc1 x0 x1 x2 xs0 xs1 xs2 xs3 = newTr i x0 x1 x2 xs3 := by
  unfold sout0_C_3
  rw [View.read_writes_eq_canon _ _ _ (scover0_C_3 c i a2 h2 a3 h3 a4 h4 a5 h5 a6 h6 a7 h7 a8 h8 a9 h9 a10 h10 hc0 hc1 x0 x1 x2 xs0 xs1 xs2 xs3)]
  unfold kernelRun0_C
  dsimp only
  sl_unfold_words
  rw [View.canon_unit_zero hz]
  unfold newTr
  simp only [View.readAt_eq_ld, h2.read_unread, h3.read_unread, h4.read_unread, h7.read_unread, h8.read_unread, h9.read_unread, h10.read_unread, View.ld_unit_zero (S := S1024x1) hz, View.ld_unit_zero (S := S1024x1024) hz, View.ld_unit_zero (S := S640x1024) hz, View.readCov_unit_zero (S := S1024x1) _ hz, shapeCast_self]

/-- The last column block writes the first output from the scratch it has just updated. -/
theorem oC3 (hc0 : ¬cond0_0 i) (hc1 : cond0_1 i) (x0 : Vec F S1024x1024 .f32) (x1 : Vec F S640x1024 .f32) (x2 : Vec F S1024x1 .i32)
    (xs0 xs1 xs2 xs3 : Vec F S1024x1 .f32) :
    out0_C_3 c i a2 h2 a3 h3 a4 h4 a5 h5 a6 h6 a7 h7 a8 h8 a9 h9 a10 h10 hc0 hc1 x0 x1 x2 xs0 xs1 xs2 xs3 = outNll (newMx x0 x1 xs0) (newSe x0 x1 xs0 xs1) (newTr i x0 x1 x2 xs3) := by
  unfold out0_C_3
  rw [View.read_writes_eq_canon _ _ _ (cover0_C_3 c i a2 h2 a3 h3 a4 h4 a5 h5 a6 h6 a7 h7 a8 h8 a9 h9 a10 h10 hc0 hc1 x0 x1 x2 xs0 xs1 xs2 xs3)]
  unfold kernelRun0_C
  dsimp only
  sl_unfold_words
  rw [View.canon_unit_zero hz]
  unfold outNll newMx newSe newTr
  simp only [View.readAt_eq_ld, h2.read_unread, h3.read_unread, h4.read_unread, h7.read_unread, h8.read_unread, h9.read_unread, h10.read_unread, View.ld_unit_zero (S := S1024x1) hz, View.ld_unit_zero (S := S1024x1024) hz, View.ld_unit_zero (S := S640x1024) hz, View.readCov_unit_zero (S := S1024x1) _ hz, shapeCast_self]

/-- The last column block writes the second output from the scratch it has just updated. -/
theorem oC4 (hc0 : ¬cond0_0 i) (hc1 : cond0_1 i) (x0 : Vec F S1024x1024 .f32) (x1 : Vec F S640x1024 .f32) (x2 : Vec F S1024x1 .i32)
    (xs0 xs1 xs2 xs3 : Vec F S1024x1 .f32) :
    out0_C_4 c i a2 h2 a3 h3 a4 h4 a5 h5 a6 h6 a7 h7 a8 h8 a9 h9 a10 h10 hc0 hc1 x0 x1 x2 xs0 xs1 xs2 xs3 = outLp (newMx x0 x1 xs0) (newSe x0 x1 xs0 xs1) (newSl x0 x1 xs2) := by
  unfold out0_C_4
  rw [View.read_writes_eq_canon _ _ _ (cover0_C_4 c i a2 h2 a3 h3 a4 h4 a5 h5 a6 h6 a7 h7 a8 h8 a9 h9 a10 h10 hc0 hc1 x0 x1 x2 xs0 xs1 xs2 xs3)]
  unfold kernelRun0_C
  dsimp only
  sl_unfold_words
  rw [View.canon_unit_zero hz]
  unfold outLp newMx newSe newSl
  simp only [View.readAt_eq_ld, h2.read_unread, h3.read_unread, h4.read_unread, h7.read_unread, h8.read_unread, h9.read_unread, h10.read_unread, View.ld_unit_zero (S := S1024x1) hz, View.ld_unit_zero (S := S1024x1024) hz, View.ld_unit_zero (S := S640x1024) hz, View.readCov_unit_zero (S := S1024x1) _ hz, shapeCast_self]

end Cert.KernelIdeal.XV

end
-- ==== Proof.Spec.lean ====
/-
  The mathematics of the label-smoothed cross-entropy, over the reals, with no program in sight.

  A row of logits `l : Fin 32000 → ℝ` is scanned in 50 blocks of 640 columns. The scan keeps four numbers
  (`St`): the running maximum, the running sum of exponentials taken relative to that maximum, the running
  sum of the logits and the logit at the label. `first` is the state after block 0, `next` the update by a
  later block: when the maximum moves from `m` to `m'`, the old sum of exponentials is rescaled by
  `exp (m - m')`, because `exp (m - m') * exp (x - m) = exp (x - m')`. After the last block the state holds the
  row's maximum, `∑ exp (l v - max)`, `∑ l v` and `l y` (`inv_last`), so that the two row results are
  minus the log-softmax at the label (`nllOf_last`) and the sum of the log-softmax over the row (`lpOf_last`).
-/
import Idealize.ShloMosaic.PureOps.Ideal

noncomputable section

namespace Cert.Xent

open Finset

/-! ## Largest values -/

/-- `M` is the largest value `f` takes. -/
def IsMaxOf {ι : Type} (f : ι → ℝ) (M : ℝ) : Prop := (∀ v, f v ≤ M) ∧ ∃ v, f v = M

theorem IsMaxOf.unique {ι : Type} {f : ι → ℝ} {M M' : ℝ} (h : IsMaxOf f M) (h' : IsMaxOf f M') : M = M' := by
  obtain ⟨v, hv⟩ := h.2
  obtain ⟨v', hv'⟩ := h'.2
  exact le_antisymm (hv ▸ h'.1 v) (hv' ▸ h.1 v')

/-- The largest value of a nonempty finite family. -/
def vmax {ι : Type} [Fintype ι] [Nonempty ι] (f : ι → ℝ) : ℝ := univ.sup' univ_nonempty f

theorem isMaxOf_vmax {ι : Type} [Fintype ι] [Nonempty ι] (f : ι → ℝ) : IsMaxOf f (vmax f) := by
  refine ⟨fun v => Finset.le_sup' f (mem_univ v), ?_⟩
  obtain ⟨i, _, hi⟩ := Finset.exists_mem_eq_sup' (univ_nonempty (α := ι)) f
  exact ⟨i, hi.symm⟩

/-- A sum of reals, seen in the extended reals, is the sum of the terms seen there. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The running maximum from `-∞` over a nonempty finite family of reals is the family's largest value. -/
theorem foldmax_coe {ι : Type} [Fintype ι] [Nonempty ι] (f : ι → ℝ) :
    (univ : Finset ι).fold max (⊥ : EReal) (fun i => (f i : EReal)) = (vmax f : EReal) := by
  obtain ⟨hle, v, hv⟩ := isMaxOf_vmax f
  apply le_antisymm
  · rw [Finset.fold_max_le]
    exact ⟨bot_le, fun x _ => EReal.coe_le_coe_iff.2 (hle x)⟩
  · rw [Finset.le_fold_max]
    exact Or.inr ⟨v, mem_univ v, by rw [hv]⟩

/-! ## The blocks of a row -/

/-- Column `640 j + u`: column `u` of block `j`. -/
def col (j : Fin 50) (u : Fin 640) : Fin 32000 :=
  ⟨640 * j.val + u.val, by have := j.isLt; have := u.isLt; omega⟩

theorem col_val (j : Fin 50) (u : Fin 640) : (col j u).val = 640 * j.val + u.val := rfl

theorem col_surj (v : Fin 32000) : ∃ (j : Fin 50) (u : Fin 640), col j u = v :=
  ⟨⟨v.val / 640, by have := v.isLt; omega⟩, ⟨v.val % 640, Nat.mod_lt _ (by norm_num)⟩,
    Fin.ext (by show 640 * (v.val / 640) + v.val % 640 = v.val; exact Nat.div_add_mod _ _)⟩

/-- A sum over the row is the sum over the blocks of the sums over each block. -/
theorem sum_blocks (g : Fin 32000 → ℝ) : ∑ v, g v = ∑ j : Fin 50, ∑ u : Fin 640, g (col j u) := by
  rw [← Fintype.sum_prod_type' (fun (j : Fin 50) (u : Fin 640) => g (col j u))]
  refine (Fintype.sum_equiv (finProdFinEquiv.trans (finCongr (by norm_num : 50 * 640 = 32000))) _ _ fun p => ?_).symm
  refine congrArg g (Fin.ext ?_)
  show 640 * p.1.val + p.2.val = p.2.val + 640 * p.1.val
  omega

/-- The sum over the blocks up to block `j`. -/
def psum (g : Fin 32000 → ℝ) (j : ℕ) : ℝ :=
  ∑ j' ∈ univ.filter (fun j' : Fin 50 => j'.val ≤ j), ∑ u : Fin 640, g (col j' u)

theorem psum_zero (g : Fin 32000 → ℝ) : psum g 0 = ∑ u : Fin 640, g (col ⟨0, by norm_num⟩ u) := by
  unfold psum
  rw [show univ.filter (fun j' : Fin 50 => j'.val ≤ 0) = {⟨0, by norm_num⟩} from by
    ext j'; simp only [mem_filter, mem_univ, true_and, mem_singleton, Fin.ext_iff]; omega]
  exact Finset.sum_singleton _ _

theorem psum_succ (g : Fin 32000 → ℝ) (j : ℕ) (h : j + 1 < 50) :
    psum g (j + 1) = psum g j + ∑ u : Fin 640, g (col ⟨j + 1, h⟩ u) := by
  unfold psum
  rw [show univ.filter (fun j' : Fin 50 => j'.val ≤ j + 1)
      = insert (⟨j + 1, h⟩ : Fin 50) (univ.filter (fun j' : Fin 50 => j'.val ≤ j)) from by
    ext j'; simp only [mem_filter, mem_univ, true_and, mem_insert, Fin.ext_iff]; omega]
  rw [Finset.sum_insert (by simp only [mem_filter, mem_univ, true_and]; omega), add_comm]

theorem psum_last (g : Fin 32000 → ℝ) : psum g 49 = ∑ v, g v := by
  unfold psum
  rw [show univ.filter (fun j' : Fin 50 => j'.val ≤ 49) = univ from by
    ext j'; simp only [mem_filter, mem_univ, true_and, iff_true]; have := j'.isLt; omega]
  exact (sum_blocks g).symm

/-! ## The scan -/

/-- What the scan keeps for a row: the running maximum, the sum of exponentials relative to it, the sum of the
    logits, the logit at the label. -/
structure St where
  mx : ℝ
  se : ℝ
  sl : ℝ
  tr : ℝ

/-- Block `j`'s contribution to the logit at label `y`: the entry in column `640 j + u = y`, if the block has it. -/
def hit (y j : ℕ) (b : Fin 640 → ℝ) : ℝ := ∑ u : Fin 640, if 640 * j + u.val = y then b u else 0

/-- The state after the first block. -/
def first (y : ℕ) (b : Fin 640 → ℝ) : St :=
  ⟨vmax b, ∑ u, Real.exp (b u - vmax b), ∑ u, b u, hit y 0 b⟩

/-- The state after a later block `j`. -/
def next (y j : ℕ) (s : St) (b : Fin 640 → ℝ) : St :=
  ⟨max s.mx (vmax b),
   Real.exp (s.mx - max s.mx (vmax b)) * s.se + ∑ u, Real.exp (b u - max s.mx (vmax b)),
   s.sl + ∑ u, b u,
   s.tr + hit y j b⟩

/-- Block `j` of a row. -/
def blk (l : Fin 32000 → ℝ) (j : ℕ) (h : j < 50) : Fin 640 → ℝ := fun u => l (col ⟨j, h⟩ u)

/-- The state after block `j`. -/
def rowSt (l : Fin 32000 → ℝ) (y : ℕ) : (j : ℕ) → j < 50 → St
  | 0, h => first y (blk l 0 h)
  | j + 1, h => next y (j + 1) (rowSt l y j (Nat.lt_of_succ_lt h)) (blk l (j + 1) h)

theorem rowSt_zero (l : Fin 32000 → ℝ) (y : ℕ) (h : 0 < 50) : rowSt l y 0 h = first y (blk l 0 h) := rfl

theorem rowSt_succ (l : Fin 32000 → ℝ) (y : ℕ) (j : ℕ) (h : j + 1 < 50) :
    rowSt l y (j + 1) h = next y (j + 1) (rowSt l y j (Nat.lt_of_succ_lt h)) (blk l (j + 1) h) := rfl

theorem rowSt_congr (l : Fin 32000 → ℝ) (y : ℕ) {j j' : ℕ} (e : j = j') (h : j < 50) (h' : j' < 50) :
    rowSt l y j h = rowSt l y j' h' := by
  subst e; rfl

theorem rowSt_of_pos (l : Fin 32000 → ℝ) (y : ℕ) (j : ℕ) (h : j < 50) (hj : j ≠ 0) (h' : j - 1 < 50) :
    rowSt l y j h = next y j (rowSt l y (j - 1) h') (blk l j h) := by
  cases j with
  | zero => exact absurd rfl hj
  | succ j => rfl

/-- What the state means after block `j`: the maximum, the sum of exponentials relative to it, the sum and the
    label's entry, each over the blocks scanned so far. -/
structure Inv (l : Fin 32000 → ℝ) (y : ℕ) (j : ℕ) (s : St) : Prop where
  le : ∀ (j' : Fin 50) (u : Fin 640), j'.val ≤ j → l (col j' u) ≤ s.mx
  att : ∃ (j' : Fin 50) (u : Fin 640), j'.val ≤ j ∧ l (col j' u) = s.mx
  se : s.se = psum (fun v => Real.exp (l v - s.mx)) j
  sl : s.sl = psum l j
  tr : s.tr = psum (fun v => if v.val = y then l v else 0) j

theorem hit_blk (l : Fin 32000 → ℝ) (y j : ℕ) (h : j < 50) :
    hit y j (blk l j h) = ∑ u : Fin 640, (fun v : Fin 32000 => if v.val = y then l v else 0) (col ⟨j, h⟩ u) := rfl

theorem inv (l : Fin 32000 → ℝ) (y : ℕ) : ∀ (j : ℕ) (h : j < 50), Inv l y j (rowSt l y j h)
  | 0, h => by
    rw [rowSt_zero]
    obtain ⟨hle, u₀, hu₀⟩ := isMaxOf_vmax (blk l 0 h)
    refine ⟨fun j' u hj' => ?_, ⟨⟨0, h⟩, u₀, le_refl _, hu₀⟩, ?_, ?_, ?_⟩
    · obtain rfl : j' = ⟨0, h⟩ := Fin.ext (by show j'.val = 0; have : j'.val ≤ 0 := hj'; omega)
      exact hle u
    · rw [psum_zero]; rfl
    · rw [psum_zero]; rfl
    · rw [psum_zero]; exact hit_blk l y 0 h
  | j + 1, h => by
    have ih := inv l y j (Nat.lt_of_succ_lt h)
    rw [rowSt_succ]
    generalize rowSt l y j (Nat.lt_of_succ_lt h) = s at ih
    obtain ⟨hle, u₀, hu₀⟩ := isMaxOf_vmax (blk l (j + 1) h)
    refine ⟨fun j' u hj' => ?_, ?_, ?_, ?_, ?_⟩
    · show l (col j' u) ≤ max s.mx (vmax (blk l (j + 1) h))
      rcases Nat.lt_or_ge j'.val (j + 1) with hlt | hge
      · exact le_max_of_le_left (ih.le j' u (by omega))
      · obtain rfl : j' = ⟨j + 1, h⟩ := Fin.ext (by show j'.val = j + 1; have : j'.val ≤ j + 1 := hj'; omega)
        exact le_max_of_le_right (hle u)
    · show ∃ (j' : Fin 50) (u : Fin 640), j'.val ≤ j + 1 ∧ l (col j' u) = max s.mx (vmax (blk l (j + 1) h))
      rcases le_total (vmax (blk l (j + 1) h)) s.mx with hm | hm
      · obtain ⟨j', u, hj', e⟩ := ih.att
        exact ⟨j', u, by omega, by rw [max_eq_left hm]; exact e⟩
      · exact ⟨⟨j + 1, h⟩, u₀, le_refl _, by rw [max_eq_right hm]; exact hu₀⟩
    · dsimp only [next]
      rw [psum_succ _ j h, ih.se]
      refine congrArg₂ (· + ·) ?_ rfl
      unfold psum
      rw [Finset.mul_sum]
      refine Finset.sum_congr rfl fun j' _ => ?_
      rw [Finset.mul_sum]
      refine Finset.sum_congr rfl fun u _ => ?_
      rw [← Real.exp_add]
      congr 1
      ring
    · show s.sl + ∑ u, blk l (j + 1) h u = _
      rw [psum_succ _ j h, ih.sl]; rfl
    · show s.tr + hit y (j + 1) (blk l (j + 1) h) = _
      rw [psum_succ _ j h, ih.tr, hit_blk]

/-- After the last block: the row's maximum, its sum of exponentials, its sum, and its entry at the label. -/
theorem inv_last (l : Fin 32000 → ℝ) (y : ℕ) (h : 49 < 50) :
    (rowSt l y 49 h).mx = vmax l
    ∧ (rowSt l y 49 h).se = ∑ v, Real.exp (l v - vmax l)
    ∧ (rowSt l y 49 h).sl = ∑ v, l v
    ∧ (rowSt l y 49 h).tr = ∑ v : Fin 32000, if v.val = y then l v else 0 := by
  have I := inv l y 49 h
  generalize rowSt l y 49 h = s at I
  have hmx : s.mx = vmax l := by
    refine IsMaxOf.unique ⟨fun v => ?_, ?_⟩ (isMaxOf_vmax l)
    · obtain ⟨j, u, rfl⟩ := col_surj v
      exact I.le j u (by have := j.isLt; omega)
    · obtain ⟨j, u, _, e⟩ := I.att
      exact ⟨col j u, e⟩
  refine ⟨hmx, ?_, ?_, ?_⟩
  · rw [I.se, psum_last, hmx]
  · rw [I.sl, psum_last]
  · rw [I.tr, psum_last]

/-! ## The row results -/

/-- The row's negative log-likelihood, from the final state. -/
def nllOf (s : St) : ℝ := s.mx + Real.log s.se - s.tr

/-- The row's sum of log-probabilities, from the final state. -/
def lpOf (s : St) : ℝ := s.sl - 32000 * (s.mx + Real.log s.se)

/-- The logarithm of the row's sum of exponentials relative to its maximum. -/
def lse (l : Fin 32000 → ℝ) : ℝ := Real.log (∑ v, Real.exp (l v - vmax l))

/-- The log-softmax of a row. -/
def lsm (l : Fin 32000 → ℝ) (v : Fin 32000) : ℝ := l v - vmax l - lse l

theorem nllOf_last (l : Fin 32000 → ℝ) (y : Fin 32000) (h : 49 < 50) :
    nllOf (rowSt l y.val 49 h) = -(lsm l y) := by
  obtain ⟨h1, h2, _, h4⟩ := inv_last l y.val h
  unfold nllOf lsm lse
  rw [h1, h2, h4]
  rw [Finset.sum_eq_single y (fun v _ hv => if_neg (fun e => hv (Fin.ext e))) (fun hy => absurd (mem_univ y) hy), if_pos rfl]
  ring

theorem lpOf_last (l : Fin 32000 → ℝ) (y : ℕ) (h : 49 < 50) :
    lpOf (rowSt l y 49 h) = ∑ v, lsm l v := by
  obtain ⟨h1, h2, h3, _⟩ := inv_last l y h
  unfold lpOf lsm lse
  rw [h1, h2, h3, Finset.sum_sub_distrib, Finset.sum_sub_distrib, Finset.sum_const, Finset.sum_const, Finset.card_univ,
    Fintype.card_fin]
  simp only [nsmul_eq_mul]
  push_cast
  ring

/-- The sum of exponentials relative to the maximum is positive. -/
theorem sumexp_pos (l : Fin 32000 → ℝ) : 0 < ∑ v, Real.exp (l v - vmax l) :=
  Finset.sum_pos (fun v _ => Real.exp_pos _) univ_nonempty

/-- The running sum of exponentials is positive at every block. -/
theorem rowSt_se_pos (l : Fin 32000 → ℝ) (y : ℕ) : ∀ (j : ℕ) (h : j < 50), 0 < (rowSt l y j h).se
  | 0, h => by
    rw [rowSt_zero]
    show 0 < ∑ u : Fin 640, Real.exp (blk l 0 h u - vmax (blk l 0 h))
    exact Finset.sum_pos (fun u _ => Real.exp_pos _) (univ_nonempty (α := Fin 640))
  | j + 1, h => by
    rw [rowSt_succ]
    show 0 < Real.exp ((rowSt l y j (Nat.lt_of_succ_lt h)).mx - max (rowSt l y j (Nat.lt_of_succ_lt h)).mx (vmax (blk l (j + 1) h)))
          * (rowSt l y j (Nat.lt_of_succ_lt h)).se
        + ∑ u : Fin 640, Real.exp (blk l (j + 1) h u - max (rowSt l y j (Nat.lt_of_succ_lt h)).mx (vmax (blk l (j + 1) h)))
    exact add_pos_of_nonneg_of_pos
      (mul_nonneg (Real.exp_pos _).le (rowSt_se_pos l y j (Nat.lt_of_succ_lt h)).le)
      (Finset.sum_pos (fun u _ => Real.exp_pos _) (univ_nonempty (α := Fin 640)))

/-! ## The loss -/

/-- The logits of row `n`: the products of the row of `x` with the rows of `w`. -/
def lg (xa : Fin 4096 → Fin 1024 → ℝ) (wa : Fin 32000 → Fin 1024 → ℝ) (n : Fin 4096) (v : Fin 32000) : ℝ :=
  ∑ k : Fin 1024, xa n k * wa v k

/-- The mean over the rows of minus the log-softmax at the label. -/
def meanNll (xa : Fin 4096 → Fin 1024 → ℝ) (wa : Fin 32000 → Fin 1024 → ℝ) (ya : Fin 4096 → Fin 32000) : ℝ :=
  (∑ n, -(lsm (lg xa wa n) (ya n))) / 4096

/-- The mean over all entries of the log-softmax. -/
def meanLp (xa : Fin 4096 → Fin 1024 → ℝ) (wa : Fin 32000 → Fin 1024 → ℝ) : ℝ :=
  (∑ n, ∑ v, lsm (lg xa wa n) v) / 4096 / 32000

/-- The smoothed loss from the two means; the two weights are kept as the float words both programs spell. -/
def lossE (A B : ℝ) : EReal :=
  (A : EReal) * Idealize.ShloMosaic.Ideal.ofBits .f32 0x3F666666#32 - (B : EReal) * Idealize.ShloMosaic.Ideal.ofBits .f32 0x3DCCCCCD#32

/-! ## The two means -/

theorem mean_neg (f : Fin 4096 → ℝ) : (∑ n, -(f n)) / 4096 = -((∑ n, f n) / 4096) := by
  rw [Finset.sum_neg_distrib]; ring

theorem mean_all (s : ℝ) : s / 4096 / 32000 = s / 131072000 := by
  rw [div_div]; norm_num

end Cert.Xent

end
-- ==== Proof.Consts.lean ====
/-
  The float constants the two programs spell, as the extended reals their bit patterns denote: `-∞`, `+∞`, and the
  three divisors 4096 (rows), 32000 (columns) and 131072000 = 4096 · 32000 (all entries).
-/
import Idealize.ShloMosaic.PureOps.Ideal

noncomputable section

namespace Cert.Xent.Consts

open Idealize.ShloMosaic

theorem ofBits_neg_inf : Ideal.ofBits .f32 0xFF800000#32 = ⊥ := by
  simp [Ideal.ofBits, Ideal.ieee]

theorem ofBits_pos_inf : Ideal.ofBits .f32 0x7F800000#32 = ⊤ := by
  simp [Ideal.ofBits, Ideal.ieee]

theorem ofBits_4096 : Ideal.ofBits .f32 0x45800000#32 = ((4096 : ℝ) : EReal) := by
  simp [Ideal.ofBits, Ideal.ieee, -EReal.coe_mul]; norm_num

theorem ofBits_32000 : Ideal.ofBits .f32 0x46FA0000#32 = ((32000 : ℝ) : EReal) := by
  simp [Ideal.ofBits, Ideal.ieee, -EReal.coe_mul]; norm_num

theorem ofBits_131072000 : Ideal.ofBits .f32 0x4CFA0000#32 = ((131072000 : ℝ) : EReal) := by
  simp [Ideal.ofBits, Ideal.ieee, -EReal.coe_mul]; norm_num

end Cert.Xent.Consts

end
-- ==== Proof.KStepLib.lean ====
/-
  Small facts about shapes, reductions, words and extended reals that the reading of one grid point at a row uses:
  a column vector made from a vector or spread over columns, read at an index; a sum and a maximum along the
  second axis of a matrix as a sum and a running maximum over the columns; the comparison of a column number
  with a label as an equation of naturals; and the arithmetic of extended reals at real arguments.
-/
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.XV

open Idealize.ShloMosaic Idealize.ShloMosaic.ValueIdx

/-! ## Column vectors at an index -/

/-- A vector `[a]` viewed as a column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `b` columns reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Reductions along the columns -/

/-- The index of a matrix over row `r` with column `k` put back is `(r, k)`. -/
theorem lift_ab_a {a b : ℕ} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

/-- The sum along the columns of a matrix, at row `r`, is the sum over the columns of the entries of row `r`. -/
theorem rowsum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction .add [1] ⟨1, ![a]⟩ src 0x00000000#32 h hφ hacc (ix1 r) = ∑ k : Fin b, src (ix2 r k) := by
  refine (Ideal.multiReduction_add_single src _ h hφ hacc (ix1 r)).trans ?_
  exact Finset.sum_congr rfl fun k _ => congrArg src (lift_ab_a h r k)

/-- The maximum along the columns of a matrix, at row `r`, is the running maximum from the starting value over the
    entries of row `r`. -/
theorem rowmax_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (r : Fin a) :
    multiReduction .maximumf [1] ⟨1, ![a]⟩ src 0xFF800000#32 h hφ hacc (ix1 r)
      = (Finset.univ : Finset (Fin b)).fold max (Ideal.ofBits .f32 0xFF800000#32) (fun k => src (ix2 r k)) := by
  refine (Ideal.multiReduction_maximumf_single src _ h hφ hacc (ix1 r)).trans ?_
  exact congrArg (fun f => (Finset.univ : Finset (Fin b)).fold max (Ideal.ofBits .f32 0xFF800000#32) f)
    (funext fun k => congrArg src (lift_ab_a h r k))

/-! ## The label mask -/

/-- A select on the comparison of two words for equality is the `if` on their equality. -/
theorem select_cmpi_eq {α : Type} (x y : BitVec 32) (A B : α) :
    Scalar.select (IntOp.cmpi .eq x y) A B = if x = y then A else B := by
  have hc : IntOp.cmpi .eq x y = BitVec.ofBool (x == y) := rfl
  rw [hc]
  unfold Scalar.select
  by_cases h : x = y
  · subst h; simp
  · have hb : (x == y) = false := beq_eq_false_iff_ne.2 h
    rw [if_neg h, hb]
    exact if_neg (by decide)

/-- Column `u` of block `j` carries the label `y` exactly when `640 j + u` is the label's number. -/
theorem label_eq_iff (u j : ℕ) (hu : u < 640) (hj : j < 50) (y : BitVec 32) :
    BitVec.ofNat 32 u + BitVec.ofNat 32 j * 640#32 = y ↔ 640 * j + u = y.toNat := by
  constructor
  · intro h
    subst h
    simp only [BitVec.toNat_add, BitVec.toNat_mul, BitVec.toNat_ofNat, Nat.reducePow]
    omega
  · intro h
    apply BitVec.eq_of_toNat_eq
    simp only [BitVec.toNat_add, BitVec.toNat_mul, BitVec.toNat_ofNat, Nat.reducePow]
    omega

/-! ## Extended reals at real arguments -/

/-- The larger of two reals, seen in the extended reals, is the larger of the two seen there. -/
theorem coe_max (a b : ℝ) : ((max a b : ℝ) : EReal) = max (a : EReal) (b : EReal) := by
  rcases le_total a b with h | h
  · rw [max_eq_right h, max_eq_right (EReal.coe_le_coe_iff.2 h)]
  · rw [max_eq_left h, max_eq_left (EReal.coe_le_coe_iff.2 h)]

/-- A sum of reals, seen in the extended reals, is the sum of the terms seen there. -/
theorem coe_sum' {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.KernelIdeal.XV

end
-- ==== Proof.KStepVal.lean ====
/-
  One grid point's arithmetic read at a row, over real data: the values `KStepDefs` names are, at the extended
  reals, the steps `first` and `next` of the scan of `Spec`, and the two outputs are `nllOf` and `lpOf` of the
  final state.
-/
import proofs.«409617_j66133906423975_1_alg».proof.Proof.KStepDefs
import proofs.«409617_j66133906423975_1_alg».proof.Proof.Spec
import proofs.«409617_j66133906423975_1_alg».proof.Proof.Consts
import proofs.«409617_j66133906423975_1_alg».proof.Proof.KStepLib
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.XV

open Idealize.ShloMosaic Idealize.ShloMosaic.ValueIdx Cert.KernelIdeal Cert.KernelIdeal.Gen Cert.Xent

/-- The block of logits: row `r` of the `x` block against row `u` of the `W` block. -/
def blogit (xr : Fin 1024 → Fin 1024 → ℝ) (wr : Fin 640 → Fin 1024 → ℝ) (r : Fin 1024) (u : Fin 640) : ℝ :=
  ∑ k : Fin 1024, xr r k * wr u k

/-! ## The product of the two blocks at an entry -/

/-- The product's dimension numbers: rows of the first block against rows of the second, both contracted along their columns. -/
abbrev dotK : DotDims S1024x1024 S640x1024 S1024x640 := dot_S1024x1024_S640x1024_S1024x640_1_1_0_0_n_n

theorem dotK_lhs_0 (i : S1024x640.Idx) (q : dotK.contr.Idx) : (dotK.lhsIdx i q 0).val = (i 0).val := by
  unfold DotDims.lhsIdx
  rw [dif_neg (show ¬(0 : Fin S1024x1024.rank) ∈ dotK.lhsBatch by decide),
    dif_pos (show (0 : Fin S1024x1024.rank) ∈ dotK.lhsNonContracting by decide)]
  rfl

theorem dotK_lhs_1 (i : S1024x640.Idx) (q : dotK.contr.Idx) : (dotK.lhsIdx i q 1).val = (q ⟨0, by decide⟩).val :=
  dotK.lhsIdx_val_of_single rfl i q

theorem dotK_rhs_0 (i : S1024x640.Idx) (q : dotK.contr.Idx) : (dotK.rhsIdx i q 0).val = (i 1).val := by
  unfold DotDims.rhsIdx
  rw [dif_neg (show ¬(0 : Fin S640x1024.rank) ∈ dotK.rhsBatch by decide),
    dif_pos (show (0 : Fin S640x1024.rank) ∈ dotK.rhsNonContracting by decide)]
  rfl

theorem dotK_rhs_1 (i : S1024x640.Idx) (q : dotK.contr.Idx) : (dotK.rhsIdx i q 1).val = (q ⟨0, by decide⟩).val :=
  dotK.rhsIdx_val_of_single rfl i q

/-- Entry `(r, u)` of the product: the sum over `k` of row `r` of the first block times row `u` of the second. -/
theorem pay12_apply (x0 : Vec Ideal S1024x1024 .f32) (x1 : Vec Ideal S640x1024 .f32) (r : Fin 1024) (u : Fin 640) :
    k0_pay12 x0 x1 (ix2 r u) = ∑ k : Fin 1024, x0 (ix2 r k) * x1 (ix2 u k) := by
  unfold k0_pay12
  refine (Ideal.matmul_constant_zero_apply dotK none _ _ (ix2 r u)).trans ?_
  rw [← Equiv.sum_comp (contrEquiv1 dotK 1024 rfl rfl).symm]
  refine Finset.sum_congr rfl fun k _ => ?_
  have hk := contrEquiv1_symm_val dotK 1024 rfl rfl k
  have el : dotK.lhsIdx (ix2 r u) ((contrEquiv1 dotK 1024 rfl rfl).symm k) = ix2 r k := funext fun a => Fin.ext (by
    match a with
    | ⟨0, _⟩ => exact dotK_lhs_0 _ _
    | ⟨1, _⟩ => exact (dotK_lhs_1 _ _).trans hk)
  have er : dotK.rhsIdx (ix2 r u) ((contrEquiv1 dotK 1024 rfl rfl).symm k) = ix2 u k := funext fun a => Fin.ext (by
    match a with
    | ⟨0, _⟩ => exact dotK_rhs_0 _ _
    | ⟨1, _⟩ => exact (dotK_rhs_1 _ _).trans hk)
  rw [el, er]
  rfl

/-! ## The lane reductions of the block at a row -/

/-- The row sums of the product, at row `r`. -/
theorem pay14_apply (x0 : Vec Ideal S1024x1024 .f32) (x1 : Vec Ideal S640x1024 .f32) (r : Fin 1024) :
    k0_pay14 x0 x1 (ix2 r (0 : Fin 1)) = ∑ u : Fin 640, k0_pay12 x0 x1 (ix2 r u) := by
  unfold k0_pay14
  refine (shapeCast_a_a1_apply _ shapeCasts_S1024_S1024x1 r 0).trans ?_
  exact rowsum_apply (k0_pay12 x0 x1) reduces_S1024x640_S1024 (.inl rfl) rfl r

/-- The new running maximum at row `r`: the larger of the old one and the running maximum over the row's entries. -/
theorem pay15_apply (x0 : Vec Ideal S1024x1024 .f32) (x1 : Vec Ideal S640x1024 .f32) (pm : Vec Ideal S1024x1 .f32)
    (r : Fin 1024) :
    k0_pay15 x0 x1 pm (ix2 r (0 : Fin 1))
      = max (pm (ix2 r (0 : Fin 1)))
          ((Finset.univ : Finset (Fin 640)).fold max (Ideal.ofBits .f32 0xFF800000#32) (fun u => k0_pay12 x0 x1 (ix2 r u))) := by
  unfold k0_pay15
  refine (maximumf_apply _ _ _).trans ?_
  refine congrArg (max (pm (ix2 r (0 : Fin 1)))) ?_
  refine (shapeCast_a_a1_apply _ shapeCasts_S1024_S1024x1 r 0).trans ?_
  exact rowmax_apply (k0_pay12 x0 x1) reduces_S1024x640_S1024 (.inl rfl) rfl r

/-- The old sum of exponentials rescaled to the new maximum, at row `r`. -/
theorem pay16_apply (x0 : Vec Ideal S1024x1024 .f32) (x1 : Vec Ideal S640x1024 .f32) (pm pm' ps : Vec Ideal S1024x1 .f32)
    (j : S1024x1.Idx) :
    k0_pay16 x0 x1 pm pm' ps j = Ideal.exp (pm' j - k0_pay15 x0 x1 pm j) * ps j := by
  unfold k0_pay16
  rfl

/-- The block's sum of exponentials relative to the new maximum, at row `r`. -/
theorem pay17_apply (x0 : Vec Ideal S1024x1024 .f32) (x1 : Vec Ideal S640x1024 .f32) (pm : Vec Ideal S1024x1 .f32)
    (r : Fin 1024) :
    k0_pay17 x0 x1 pm (ix2 r (0 : Fin 1))
      = ∑ u : Fin 640, Ideal.exp (k0_pay12 x0 x1 (ix2 r u) - k0_pay15 x0 x1 pm (ix2 r (0 : Fin 1))) := by
  unfold k0_pay17
  refine (shapeCast_a_a1_apply _ shapeCasts_S1024_S1024x1 r 0).trans ?_
  refine (rowsum_apply _ reduces_S1024x640_S1024 (.inl rfl) rfl r).trans ?_
  refine Finset.sum_congr rfl fun u _ => ?_
  show Ideal.exp (k0_pay12 x0 x1 (ix2 r u)
      - broadcastTo S1024x640 (k0_pay15 x0 x1 pm) broadcasts_S1024x1_S1024x640 (ix2 r u)) = _
  rw [broadcastTo_a1_ab_apply]

/-- The block's entry at the label, at row `r`: the sum over the columns of the entries whose column number is the label. -/
theorem pay13_apply (i : grid0.Coords) (x0 : Vec Ideal S1024x1024 .f32) (x1 : Vec Ideal S640x1024 .f32)
    (x2 : Vec Ideal S1024x1 .i32) (r : Fin 1024) :
    k0_pay13 i x0 x1 x2 (ix2 r (0 : Fin 1))
      = ∑ u : Fin 640, if 640 * (i 1).val + u.val = (x2 (ix2 r (0 : Fin 1)) : BitVec 32).toNat
          then k0_pay12 x0 x1 (ix2 r u) else 0 := by
  unfold k0_pay13
  refine (shapeCast_a_a1_apply _ shapeCasts_S1024_S1024x1 r 0).trans ?_
  refine (rowsum_apply _ reduces_S1024x640_S1024 (.inl rfl) rfl r).trans ?_
  refine Finset.sum_congr rfl fun u _ => ?_
  show Scalar.select (IntOp.cmpi .eq
        (iota .tc S1024x640 32 [1] iota_S1024x640_d1_w32 (ix2 r u) + BitVec.ofNat 32 (i 1).val * 640#32)
        (broadcastTo S1024x640 (shapeCast S1024x1 x2 shapeCasts_S1024x1_S1024x1) broadcasts_S1024x1_S1024x640 (ix2 r u)))
      (k0_pay12 x0 x1 (ix2 r u)) (Ideal.ofBits .f32 0x00000000#32) = _
  rw [select_cmpi_eq, broadcastTo_a1_ab_apply, shapeCast_self, iota_single_apply, Ideal.ofBits_zero_f32]
  have hj : (i 1).val < 50 := (i 1).isLt
  exact if_congr (label_eq_iff u.val (i 1).val u.isLt hj _) rfl rfl

/-! ## The block over real data -/

section Real

variable (x0 : Vec Ideal S1024x1024 .f32) (x1 : Vec Ideal S640x1024 .f32)
  (xr : Fin 1024 → Fin 1024 → ℝ) (wr : Fin 640 → Fin 1024 → ℝ)
  (hx : ∀ (r : Fin 1024) (k : Fin 1024), x0 (ix2 r k) = ((xr r k : ℝ) : EReal))
  (hw : ∀ (u : Fin 640) (k : Fin 1024), x1 (ix2 u k) = ((wr u k : ℝ) : EReal))

include hx hw

/-- Over real blocks the product's entry `(r, u)` is the real logit. -/
theorem pay12_real (r : Fin 1024) (u : Fin 640) : k0_pay12 x0 x1 (ix2 r u) = ((blogit xr wr r u : ℝ) : EReal) := by
  rw [pay12_apply]
  unfold blogit
  rw [coe_sum]
  refine Finset.sum_congr rfl fun k _ => ?_
  rw [hx, hw, EReal.coe_mul]

/-- The row sum of the block is the sum of the row's logits. -/
theorem pay14_real (r : Fin 1024) :
    k0_pay14 x0 x1 (ix2 r (0 : Fin 1)) = ((∑ u : Fin 640, blogit xr wr r u : ℝ) : EReal) := by
  rw [pay14_apply, coe_sum]
  exact Finset.sum_congr rfl fun u _ => pay12_real x0 x1 xr wr hx hw r u

/-- The new running maximum is the larger of the old one and the largest logit of the row. -/
theorem pay15_real (pm : Vec Ideal S1024x1 .f32) (r : Fin 1024) :
    k0_pay15 x0 x1 pm (ix2 r (0 : Fin 1)) = max (pm (ix2 r (0 : Fin 1))) ((vmax (blogit xr wr r) : ℝ) : EReal) := by
  rw [pay15_apply, Consts.ofBits_neg_inf,
    show (fun u => k0_pay12 x0 x1 (ix2 r u)) = fun u => ((blogit xr wr r u : ℝ) : EReal) from
      funext fun u => pay12_real x0 x1 xr wr hx hw r u,
    foldmax_coe]

/-- The block's sum of exponentials relative to a real new maximum. -/
theorem pay17_real (pm : Vec Ideal S1024x1 .f32) (r : Fin 1024) (M : ℝ)
    (hM : k0_pay15 x0 x1 pm (ix2 r (0 : Fin 1)) = ((M : ℝ) : EReal)) :
    k0_pay17 x0 x1 pm (ix2 r (0 : Fin 1)) = ((∑ u : Fin 640, Real.exp (blogit xr wr r u - M) : ℝ) : EReal) := by
  rw [pay17_apply, coe_sum, hM]
  refine Finset.sum_congr rfl fun u _ => ?_
  rw [pay12_real x0 x1 xr wr hx hw r u, ← EReal.coe_sub, Ideal.exp_coe]

/-- The block's entry at the label is the real one. -/
theorem pay13_real (i : grid0.Coords) (x2 : Vec Ideal S1024x1 .i32) (r : Fin 1024) :
    k0_pay13 i x0 x1 x2 (ix2 r (0 : Fin 1))
      = ((hit (x2 (ix2 r (0 : Fin 1)) : BitVec 32).toNat (i 1).val (blogit xr wr r) : ℝ) : EReal) := by
  rw [pay13_apply]
  unfold hit
  rw [coe_sum]
  refine Finset.sum_congr rfl fun u _ => ?_
  rw [pay12_real x0 x1 xr wr hx hw r u]
  split
  · rfl
  · exact EReal.coe_zero.symm

end Real

/-! ## What a point stores, from the payloads -/

theorem newMx_apply (x0 : Vec Ideal S1024x1024 .f32) (x1 : Vec Ideal S640x1024 .f32) (pm : Vec Ideal S1024x1 .f32)
    (j : S1024x1.Idx) : newMx x0 x1 pm j = k0_pay15 x0 x1 pm j := by
  unfold newMx k0_pay2
  exact congrFun (shapeCast_self _ _) j

theorem newSe_apply (x0 : Vec Ideal S1024x1024 .f32) (x1 : Vec Ideal S640x1024 .f32) (pm ps : Vec Ideal S1024x1 .f32)
    (j : S1024x1.Idx) : newSe x0 x1 pm ps j = k0_pay16 x0 x1 pm pm ps j + k0_pay17 x0 x1 pm j := by
  unfold newSe k0_pay1
  exact congrFun (shapeCast_self _ _) j

theorem newSl_apply (x0 : Vec Ideal S1024x1024 .f32) (x1 : Vec Ideal S640x1024 .f32) (pl : Vec Ideal S1024x1 .f32)
    (j : S1024x1.Idx) : newSl x0 x1 pl j = pl j + k0_pay14 x0 x1 j := by
  unfold newSl k0_pay3
  exact congrFun (shapeCast_self _ _) j

theorem newTr_apply (i : grid0.Coords) (x0 : Vec Ideal S1024x1024 .f32) (x1 : Vec Ideal S640x1024 .f32)
    (x2 : Vec Ideal S1024x1 .i32) (pt : Vec Ideal S1024x1 .f32) (j : S1024x1.Idx) :
    newTr i x0 x1 x2 pt j = pt j + k0_pay13 i x0 x1 x2 j := by
  unfold newTr k0_pay4
  exact congrFun (shapeCast_self _ _) j

theorem initMx_apply (j : S1024x1.Idx) : (initMx (F := Ideal)) j = ⊥ := by
  unfold initMx k0_pay8
  exact (congrFun (shapeCast_self _ _) j).trans Consts.ofBits_neg_inf

theorem initSe_apply (j : S1024x1.Idx) : (initSe (F := Ideal)) j = 0 := by
  unfold initSe k0_pay9
  exact (congrFun (shapeCast_self _ _) j).trans Ideal.ofBits_zero_f32

theorem initSl_apply (j : S1024x1.Idx) : (initSl (F := Ideal)) j = 0 := by
  unfold initSl k0_pay10
  exact (congrFun (shapeCast_self _ _) j).trans Ideal.ofBits_zero_f32

theorem initTr_apply (j : S1024x1.Idx) : (initTr (F := Ideal)) j = 0 := by
  unfold initTr k0_pay11
  exact (congrFun (shapeCast_self _ _) j).trans Ideal.ofBits_zero_f32

/-! ## The three statements -/

/-- The first point of a row block (column block 0), from the reset scratch. -/
theorem first_val (i : grid0.Coords) (hi : (i 1).val = 0)
    (x0 : Vec Ideal S1024x1024 .f32) (x1 : Vec Ideal S640x1024 .f32) (x2 : Vec Ideal S1024x1 .i32)
    (xr : Fin 1024 → Fin 1024 → ℝ) (wr : Fin 640 → Fin 1024 → ℝ)
    (hx : ∀ (r : Fin 1024) (k : Fin 1024), x0 (ix2 r k) = ((xr r k : ℝ) : EReal))
    (hw : ∀ (u : Fin 640) (k : Fin 1024), x1 (ix2 u k) = ((wr u k : ℝ) : EReal)) (r : Fin 1024) :
    newMx x0 x1 (initMx (F := Ideal)) (ix2 r (0 : Fin 1))
        = (((first (x2 (ix2 r (0 : Fin 1)) : BitVec 32).toNat (blogit xr wr r)).mx : ℝ) : EReal)
    ∧ newSe x0 x1 (initMx (F := Ideal)) (initSe (F := Ideal)) (ix2 r (0 : Fin 1))
        = (((first (x2 (ix2 r (0 : Fin 1)) : BitVec 32).toNat (blogit xr wr r)).se : ℝ) : EReal)
    ∧ newSl x0 x1 (initSl (F := Ideal)) (ix2 r (0 : Fin 1))
        = (((first (x2 (ix2 r (0 : Fin 1)) : BitVec 32).toNat (blogit xr wr r)).sl : ℝ) : EReal)
    ∧ newTr i x0 x1 x2 (initTr (F := Ideal)) (ix2 r (0 : Fin 1))
        = (((first (x2 (ix2 r (0 : Fin 1)) : BitVec 32).toNat (blogit xr wr r)).tr : ℝ) : EReal) := by
  have hM : k0_pay15 x0 x1 (initMx (F := Ideal)) (ix2 r (0 : Fin 1)) = ((vmax (blogit xr wr r) : ℝ) : EReal) := by
    rw [pay15_real x0 x1 xr wr hx hw, initMx_apply, max_bot_left]
  refine ⟨?_, ?_, ?_, ?_⟩
  · rw [newMx_apply, hM]
    rfl
  · rw [newSe_apply, pay16_apply, pay17_real x0 x1 xr wr hx hw _ r _ hM, hM, initMx_apply, initSe_apply, EReal.bot_sub,
      Ideal.exp_bot, mul_zero, zero_add]
    rfl
  · rw [newSl_apply, initSl_apply, zero_add, pay14_real x0 x1 xr wr hx hw]
    rfl
  · rw [newTr_apply, initTr_apply, zero_add, pay13_real x0 x1 xr wr hx hw, hi]
    rfl

/-- A later point (column block `(i 1).val`), from scratch holding the state `s` at row `r`. -/
theorem next_val (i : grid0.Coords)
    (x0 : Vec Ideal S1024x1024 .f32) (x1 : Vec Ideal S640x1024 .f32) (x2 : Vec Ideal S1024x1 .i32)
    (pm ps pl pt : Vec Ideal S1024x1 .f32)
    (xr : Fin 1024 → Fin 1024 → ℝ) (wr : Fin 640 → Fin 1024 → ℝ)
    (hx : ∀ (r : Fin 1024) (k : Fin 1024), x0 (ix2 r k) = ((xr r k : ℝ) : EReal))
    (hw : ∀ (u : Fin 640) (k : Fin 1024), x1 (ix2 u k) = ((wr u k : ℝ) : EReal)) (r : Fin 1024) (s : St)
    (hpm : pm (ix2 r (0 : Fin 1)) = ((s.mx : ℝ) : EReal)) (hps : ps (ix2 r (0 : Fin 1)) = ((s.se : ℝ) : EReal))
    (hpl : pl (ix2 r (0 : Fin 1)) = ((s.sl : ℝ) : EReal)) (hpt : pt (ix2 r (0 : Fin 1)) = ((s.tr : ℝ) : EReal)) :
    newMx x0 x1 pm (ix2 r (0 : Fin 1))
        = (((next (x2 (ix2 r (0 : Fin 1)) : BitVec 32).toNat (i 1).val s (blogit xr wr r)).mx : ℝ) : EReal)
    ∧ newSe x0 x1 pm ps (ix2 r (0 : Fin 1))
        = (((next (x2 (ix2 r (0 : Fin 1)) : BitVec 32).toNat (i 1).val s (blogit xr wr r)).se : ℝ) : EReal)
    ∧ newSl x0 x1 pl (ix2 r (0 : Fin 1))
        = (((next (x2 (ix2 r (0 : Fin 1)) : BitVec 32).toNat (i 1).val s (blogit xr wr r)).sl : ℝ) : EReal)
    ∧ newTr i x0 x1 x2 pt (ix2 r (0 : Fin 1))
        = (((next (x2 (ix2 r (0 : Fin 1)) : BitVec 32).toNat (i 1).val s (blogit xr wr r)).tr : ℝ) : EReal) := by
  have hM : k0_pay15 x0 x1 pm (ix2 r (0 : Fin 1)) = ((max s.mx (vmax (blogit xr wr r)) : ℝ) : EReal) := by
    rw [pay15_real x0 x1 xr wr hx hw, hpm, coe_max]
  refine ⟨?_, ?_, ?_, ?_⟩
  · rw [newMx_apply, hM]
    rfl
  · rw [newSe_apply, pay16_apply, pay17_real x0 x1 xr wr hx hw _ r _ hM, hM, hpm, hps, ← EReal.coe_sub, Ideal.exp_coe,
      ← EReal.coe_mul, ← EReal.coe_add]
    rfl
  · rw [newSl_apply, hpl, pay14_real x0 x1 xr wr hx hw, ← EReal.coe_add]
    rfl
  · rw [newTr_apply, hpt, pay13_real x0 x1 xr wr hx hw, ← EReal.coe_add]
    rfl

/-- The two outputs at a row, from scratch holding the final state `s` (whose sum of exponentials is positive). -/
theorem out_val (mx se sl tr : Vec Ideal S1024x1 .f32) (r : Fin 1024) (s : St) (hs : 0 < s.se)
    (hmx : mx (ix2 r (0 : Fin 1)) = ((s.mx : ℝ) : EReal)) (hse : se (ix2 r (0 : Fin 1)) = ((s.se : ℝ) : EReal))
    (hsl : sl (ix2 r (0 : Fin 1)) = ((s.sl : ℝ) : EReal)) (htr : tr (ix2 r (0 : Fin 1)) = ((s.tr : ℝ) : EReal)) :
    outNll mx se tr (ix2 r (0 : Fin 1)) = ((nllOf s : ℝ) : EReal)
    ∧ outLp mx se sl (ix2 r (0 : Fin 1)) = ((lpOf s : ℝ) : EReal) := by
  have h5 : k0_pay5 mx se (ix2 r (0 : Fin 1)) = ((s.mx + Real.log s.se : ℝ) : EReal) := by
    show mx (ix2 r (0 : Fin 1)) + Ideal.log (se (ix2 r (0 : Fin 1))) = _
    rw [hmx, hse, Ideal.log_coe, if_neg (not_le.2 hs), ← EReal.coe_add]
  constructor
  · show k0_pay5 mx se (ix2 r (0 : Fin 1)) - tr (ix2 r (0 : Fin 1)) = _
    rw [h5, htr, ← EReal.coe_sub]
    rfl
  · show sl (ix2 r (0 : Fin 1)) - Ideal.ofBits .f32 0x46FA0000#32 * k0_pay5 mx se (ix2 r (0 : Fin 1)) = _
    rw [h5, hsl, Consts.ofBits_32000, ← EReal.coe_mul, ← EReal.coe_sub]
    rfl

end Cert.KernelIdeal.XV

end
-- ==== Proof.KBlocks.lean ====
/-
  The three input blocks of a grid point, entry by entry: at point `t = 50 i + j` the `x` window holds rows
  `1024 i + r`, the `W` window rows `640 j + u`, and the label window (over the labels reshaped to a column) the
  labels `1024 i + r`.
-/
import proofs.«409617_j66133906423975_1_alg».proof.Proof.Gen.KernelIdeal.Frame
import Idealize.ShloMosaic.Lib.ValueIdx
import Idealize.ShloMosaic.Lib.Pipeline.Value
import Idealize.ShloMosaic.Lib.StableHlo.Run

noncomputable section

namespace Cert.KernelIdeal.XV

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- Row `1024 i + r` of the 4096, for the row block `i = t / 50` of point `t`. -/
def rowOf (t : Fin cfg0.N) (r : Fin 1024) : Fin 4096 :=
  ⟨1024 * (t.val / 50) + r.val, by
    have h : t.val < 200 := lt_of_lt_of_eq t.isLt (show cfg0.N = 200 from N_0)
    have := r.isLt; omega⟩

/-- Column `640 j + u` of the 32000, for the column block `j = t % 50` of point `t`. -/
def colOf (t : Fin cfg0.N) (u : Fin 640) : Fin 32000 :=
  ⟨640 * (t.val % 50) + u.val, by have := u.isLt; have := Nat.mod_lt t.val (by norm_num : 0 < 50); omega⟩

theorem index0 : ∀ t : Fin cfg0.N, win0_0.index t 0 = t.val / 50 ∧ win0_0.index t 1 = 0 :=
  (by decide +kernel : ∀ t : Fin grid0.N, win0_0.index t 0 = t.val / 50 ∧ win0_0.index t 1 = 0)

theorem index1 : ∀ t : Fin cfg0.N, win0_1.index t 0 = t.val % 50 ∧ win0_1.index t 1 = 0 :=
  (by decide +kernel : ∀ t : Fin grid0.N, win0_1.index t 0 = t.val % 50 ∧ win0_1.index t 1 = 0)

theorem index2 : ∀ t : Fin cfg0.N, win0_2.index t 0 = t.val / 50 ∧ win0_2.index t 1 = 0 :=
  (by decide +kernel : ∀ t : Fin grid0.N, win0_2.index t 0 = t.val / 50 ∧ win0_2.index t 1 = 0)

/-- The `x` block at a point reads the argument at the row block's rows. -/
theorem iblk0_apply (c : Dev nD) (t : Fin cfg0.N) (r : Fin 1024) (k : Fin 1024) :
    (iblk m c 0 t : Vec F S1024x1024 .f32) (ix2 r k) = m ((c : Thread nD τ).loc main_arg0) (ix2 (rowOf t r) k) := by
  have hi := index0 t
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * r.val = 1024 * (t.val / 50) + r.val; rw [hi.1]; omega
  | ⟨1, _⟩ => show win0_0.index t 1 * 1024 + 1 * k.val = k.val; rw [hi.2]; omega

/-- The `W` block at a point reads the argument at the column block's rows. -/
theorem iblk1_apply (c : Dev nD) (t : Fin cfg0.N) (u : Fin 640) (k : Fin 1024) :
    (iblk m c 1 t : Vec F S640x1024 .f32) (ix2 u k) = m ((c : Thread nD τ).loc main_arg1) (ix2 (colOf t u) k) := by
  have hi := index1 t
  unfold iblk
  rw [View.read_apply]
  show V m c main_arg1 _ = m (c.tc.loc main_arg1) _
  rw [V_main_arg1]
  congr 1
  funext a
  apply Fin.ext
  match a with
  | ⟨0, _⟩ => show win0_1.index t 0 * 640 + 1 * u.val = 640 * (t.val % 50) + u.val; rw [hi.1]; omega
  | ⟨1, _⟩ => show win0_1.index t 1 * 1024 + 1 * k.val = k.val; rw [hi.2]; omega

/-- The labels as the region finds them: the argument reshaped to a column. -/
theorem V_main_v0 (c : Dev nD) :
    (V m c main_v0 : S4096x1.Idx → Elt F .i32) = shapeCast S4096x1 (m ((c : Thread nD τ).loc main_arg2)) shapeCasts_S4096_S4096x1 := by
  show StableHlo.after hostOps0 (fun b => m (c, b)) (Proc.devRef .tc main_v0) = _
  after_results
  rfl

/-- The label block at a point reads the labels of the row block's rows. -/
theorem iblk2_apply (c : Dev nD) (t : Fin cfg0.N) (r : Fin 1024) :
    (iblk m c 2 t : Vec F S1024x1 .i32) (ix2 r (0 : Fin 1)) = m ((c : Thread nD τ).loc main_arg2) (ix1 (rowOf t r)) := by
  have hi := index2 t
  unfold iblk
  rw [View.read_apply]
  show V m c main_v0 _ = m (c.tc.loc main_arg2) _
  rw [V_main_v0]
  refine shapeCast_apply _ _ _ _ ?_
  show (S4096.rowMajor (ix1 (rowOf t r))).val = (S4096x1.rowMajor (((cfg0.win 2).blk t).view.emb (ix2 r (0 : Fin 1)))).val
  rw [Shape.rowMajor_val_one, Shape.rowMajor_val_two]
  show 1024 * (t.val / 50) + r.val = (win0_2.index t 0 * 1024 + 1 * r.val) * 1 + (win0_2.index t 1 * 1 + 1 * 0)
  rw [hi.1, hi.2]; omega

end Cert.KernelIdeal.XV

end
-- ==== Proof.Data.lean ====
/-
  What the precondition gives, in the form every value proof here takes it: the two float arguments are arrays of
  real numbers and every label lies in the range of the columns.
-/
import Idealize.ShloMosaic.Lib.ValueIdx
import proofs.«409617_j66133906423975_1_alg».proof.Proof.Spec

noncomputable section

namespace Cert.Xent

open Idealize.ShloMosaic Idealize.ShloMosaic.ValueIdx

/-- The arguments as real data: `xa` and `wa` are the entries of the two float arrays, `ya` the labels, each a column. -/
structure Data (X : FVec Ideal ⟨2, ![4096, 1024]⟩ .f32) (Wt : FVec Ideal ⟨2, ![32000, 1024]⟩ .f32)
    (Y : IVec ⟨1, ![4096]⟩ 32) where
  xa : Fin 4096 → Fin 1024 → ℝ
  wa : Fin 32000 → Fin 1024 → ℝ
  ya : Fin 4096 → Fin 32000
  hX : ∀ (n : Fin 4096) (k : Fin 1024), X (ix2 n k) = ((xa n k : ℝ) : EReal)
  hW : ∀ (v : Fin 32000) (k : Fin 1024), Wt (ix2 v k) = ((wa v k : ℝ) : EReal)
  hY : ∀ n : Fin 4096, Y (ix1 n) = BitVec.ofNat 32 (ya n).val

end Cert.Xent

end
-- ==== Proof.KInv.lean ====
/-
  The scratch buffers point by point. After point `t = 50 i + j` the four scratch buffers hold, at row `r`, the state
  of the scan of row `1024 i + r`'s logits after column block `j` (`stAt`): by induction on the point, the first
  column block of a row block starting the scan afresh, every other one continuing from what the point before left.
  At the last column block the two output blocks hold the row results of the final state.
-/
import proofs.«409617_j66133906423975_1_alg».proof.Proof.KPieces
import proofs.«409617_j66133906423975_1_alg».proof.Proof.KStepVal
import proofs.«409617_j66133906423975_1_alg».proof.Proof.KBlocks
import proofs.«409617_j66133906423975_1_alg».proof.Proof.Data

noncomputable section

namespace Cert.KernelIdeal.XV

open Idealize.ShloMosaic Idealize.ShloMosaic.TcCoe Idealize.SL.Sem Idealize.ShloMosaic.ValueIdx
open Cert.KernelIdeal Cert.KernelIdeal.Gen Cert.Xent

variable (m : (ℓ : Loc nD τ sig) → Buf (Elt Ideal) ℓ) (c : Dev nD)

/-- The three input blocks of a point, at their literal types. -/
abbrev X0 (t : Fin cfg0.N) : Vec Ideal S1024x1024 .f32 := iblk m c 0 t
abbrev X1 (t : Fin cfg0.N) : Vec Ideal S640x1024 .f32 := iblk m c 1 t
abbrev X2 (t : Fin cfg0.N) : Vec Ideal S1024x1 .i32 := iblk m c 2 t

theorem coords1 : ∀ t : Fin cfg0.N, ((grid0.coords t) 1).val = t.val % 50 :=
  (by decide +kernel : ∀ t : Fin grid0.N, ((grid0.coords t) 1).val = t.val % 50)

theorem outsAt0_congr {n n' : ℕ} (e : n = n') (h : n < cfg0.N) (h' : n' < cfg0.N) :
    outsAt0 m c n h = outsAt0 m c n' h' := by
  subst e; rfl

/-! ## What each kind of point leaves, in the point's arithmetic -/

/-- A first column block. -/
theorem outsA (t : Fin cfg0.N) (h0 : t.val % 50 = 0) (h1 : ¬t.val % 50 = 49) :
    (outsAt0 m c t.val t.isLt).2.2.1 = newMx (X0 m c t) (X1 m c t) (initMx (F := Ideal))
    ∧ (outsAt0 m c t.val t.isLt).2.2.2.1 = newSe (X0 m c t) (X1 m c t) (initMx (F := Ideal)) (initSe (F := Ideal))
    ∧ (outsAt0 m c t.val t.isLt).2.2.2.2.1 = newSl (X0 m c t) (X1 m c t) (initSl (F := Ideal))
    ∧ (outsAt0 m c t.val t.isLt).2.2.2.2.2 = newTr (grid0.coords t) (X0 m c t) (X1 m c t) (X2 m c t) (initTr (F := Ideal)) := by
  rw [outsAt0_A m c t h0 h1]
  dsimp only
  exact ⟨sA0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t),
    sA1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t),
    sA2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t),
    sA3 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t)⟩

/-- What the point before left in the four scratch buffers. -/
abbrev P0 (t : Fin cfg0.N) : Vec Ideal S1024x1 .f32 := (outsAt0 m c (t.val - 1) (Nat.lt_of_le_of_lt (Nat.sub_le _ _) t.isLt)).2.2.1
abbrev P1 (t : Fin cfg0.N) : Vec Ideal S1024x1 .f32 := (outsAt0 m c (t.val - 1) (Nat.lt_of_le_of_lt (Nat.sub_le _ _) t.isLt)).2.2.2.1
abbrev P2 (t : Fin cfg0.N) : Vec Ideal S1024x1 .f32 := (outsAt0 m c (t.val - 1) (Nat.lt_of_le_of_lt (Nat.sub_le _ _) t.isLt)).2.2.2.2.1
abbrev P3 (t : Fin cfg0.N) : Vec Ideal S1024x1 .f32 := (outsAt0 m c (t.val - 1) (Nat.lt_of_le_of_lt (Nat.sub_le _ _) t.isLt)).2.2.2.2.2

/-- A middle column block. -/
theorem outsB (t : Fin cfg0.N) (h0 : ¬t.val % 50 = 0) (h1 : ¬t.val % 50 = 49) :
    (outsAt0 m c t.val t.isLt).2.2.1 = newMx (X0 m c t) (X1 m c t) (P0 m c t)
    ∧ (outsAt0 m c t.val t.isLt).2.2.2.1 = newSe (X0 m c t) (X1 m c t) (P0 m c t) (P1 m c t)
    ∧ (outsAt0 m c t.val t.isLt).2.2.2.2.1 = newSl (X0 m c t) (X1 m c t) (P2 m c t)
    ∧ (outsAt0 m c t.val t.isLt).2.2.2.2.2 = newTr (grid0.coords t) (X0 m c t) (X1 m c t) (X2 m c t) (P3 m c t) := by
  rw [outsAt0_B m c t h0 h1]
  dsimp only
  exact ⟨sB0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (P0 m c t) (P1 m c t) (P2 m c t) (P3 m c t),
    sB1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (P0 m c t) (P1 m c t) (P2 m c t) (P3 m c t),
    sB2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (P0 m c t) (P1 m c t) (P2 m c t) (P3 m c t),
    sB3 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (P0 m c t) (P1 m c t) (P2 m c t) (P3 m c t)⟩

/-- A last column block: the scratch as at a middle one, and the two output blocks. -/
theorem outsC (t : Fin cfg0.N) (h0 : ¬t.val % 50 = 0) (h1 : t.val % 50 = 49) :
    ((outsAt0 m c t.val t.isLt).2.2.1 = newMx (X0 m c t) (X1 m c t) (P0 m c t)
    ∧ (outsAt0 m c t.val t.isLt).2.2.2.1 = newSe (X0 m c t) (X1 m c t) (P0 m c t) (P1 m c t)
    ∧ (outsAt0 m c t.val t.isLt).2.2.2.2.1 = newSl (X0 m c t) (X1 m c t) (P2 m c t)
    ∧ (outsAt0 m c t.val t.isLt).2.2.2.2.2 = newTr (grid0.coords t) (X0 m c t) (X1 m c t) (X2 m c t) (P3 m c t))
    ∧ (outsAt0 m c t.val t.isLt).1 = outNll (newMx (X0 m c t) (X1 m c t) (P0 m c t)) (newSe (X0 m c t) (X1 m c t) (P0 m c t) (P1 m c t))
        (newTr (grid0.coords t) (X0 m c t) (X1 m c t) (X2 m c t) (P3 m c t))
    ∧ (outsAt0 m c t.val t.isLt).2.1 = outLp (newMx (X0 m c t) (X1 m c t) (P0 m c t)) (newSe (X0 m c t) (X1 m c t) (P0 m c t) (P1 m c t))
        (newSl (X0 m c t) (X1 m c t) (P2 m c t)) := by
  rw [outsAt0_C m c t h0 h1]
  dsimp only
  exact ⟨⟨sC0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (P0 m c t) (P1 m c t) (P2 m c t) (P3 m c t),
    sC1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (P0 m c t) (P1 m c t) (P2 m c t) (P3 m c t),
    sC2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (P0 m c t) (P1 m c t) (P2 m c t) (P3 m c t),
    sC3 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (P0 m c t) (P1 m c t) (P2 m c t) (P3 m c t)⟩,
    oC3 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (P0 m c t) (P1 m c t) (P2 m c t) (P3 m c t),
    oC4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (P0 m c t) (P1 m c t) (P2 m c t) (P3 m c t)⟩

/-! ## The blocks over real data -/

variable (D : Data (m ((c : Thread nD τ).loc main_arg0)) (m ((c : Thread nD τ).loc main_arg1)) (m ((c : Thread nD τ).loc main_arg2)))

theorem hx_at (t : Fin cfg0.N) (r : Fin 1024) (k : Fin 1024) :
    X0 m c t (ix2 r k) = ((D.xa (rowOf t r) k : ℝ) : EReal) :=
  (iblk0_apply m c t r k).trans (D.hX _ _)

theorem hw_at (t : Fin cfg0.N) (u : Fin 640) (k : Fin 1024) :
    X1 m c t (ix2 u k) = ((D.wa (colOf t u) k : ℝ) : EReal) :=
  (iblk1_apply m c t u k).trans (D.hW _ _)

theorem y_at (t : Fin cfg0.N) (r : Fin 1024) :
    (X2 m c t (ix2 r (0 : Fin 1)) : BitVec 32).toNat = (D.ya (rowOf t r)).val := by
  show ((iblk m c 2 t : Vec Ideal S1024x1 .i32) (ix2 r (0 : Fin 1)) : BitVec 32).toNat = _
  rw [iblk2_apply, D.hY, BitVec.toNat_ofNat]
  exact Nat.mod_eq_of_lt (lt_trans (D.ya _).isLt (by norm_num))

/-- The logits of row `1024 i + r`. -/
abbrev rowL (t : Fin cfg0.N) (r : Fin 1024) : Fin 32000 → ℝ := lg D.xa D.wa (rowOf t r)

theorem blk_congr (l : Fin 32000 → ℝ) {j j' : ℕ} (e : j = j') (h : j < 50) (h' : j' < 50) : blk l j h = blk l j' h' := by
  subst e; rfl

/-- The block of logits of a point is the point's column block of the row's logits. -/
theorem blogit_at (t : Fin cfg0.N) (r : Fin 1024) :
    blogit (fun r k => D.xa (rowOf t r) k) (fun u k => D.wa (colOf t u) k) r
      = blk (rowL m c D t r) (t.val % 50) (Nat.mod_lt _ (by norm_num)) := rfl

/-- The state of the scan of row `1024 i + r` after column block `j`, at point `t = 50 i + j`. -/
def stAt (t : Fin cfg0.N) (r : Fin 1024) : St :=
  rowSt (rowL m c D t r) (D.ya (rowOf t r)).val (t.val % 50) (Nat.mod_lt _ (by norm_num))

/-- The four scratch buffers hold the state `s` at row `r`. -/
def Holds (o : Vec Ideal S1024x1 .f32 × Vec Ideal S1024x1 .f32 × Vec Ideal S1024x1 .f32 × Vec Ideal S1024x1 .f32 × Vec Ideal S1024x1 .f32 × Vec Ideal S1024x1 .f32)
    (s : St) (r : Fin 1024) : Prop :=
  o.2.2.1 (ix2 r (0 : Fin 1)) = ((s.mx : ℝ) : EReal) ∧ o.2.2.2.1 (ix2 r (0 : Fin 1)) = ((s.se : ℝ) : EReal)
  ∧ o.2.2.2.2.1 (ix2 r (0 : Fin 1)) = ((s.sl : ℝ) : EReal) ∧ o.2.2.2.2.2 (ix2 r (0 : Fin 1)) = ((s.tr : ℝ) : EReal)

theorem rowOf_pred (t : Fin cfg0.N) (h0 : ¬t.val % 50 = 0) (r : Fin 1024) :
    rowOf ⟨t.val - 1, Nat.lt_of_le_of_lt (Nat.sub_le _ _) t.isLt⟩ r = rowOf t r := by
  apply Fin.ext
  show 1024 * ((t.val - 1) / 50) + r.val = 1024 * (t.val / 50) + r.val
  have : (t.val - 1) / 50 = t.val / 50 := by omega
  rw [this]

/-- The state at a point that is not a first column block continues the state at the point before. -/
theorem stAt_next (t : Fin cfg0.N) (h0 : ¬t.val % 50 = 0) (r : Fin 1024) :
    stAt m c D t r = next (D.ya (rowOf t r)).val (t.val % 50)
      (stAt m c D ⟨t.val - 1, Nat.lt_of_le_of_lt (Nat.sub_le _ _) t.isLt⟩ r)
      (blk (rowL m c D t r) (t.val % 50) (Nat.mod_lt _ (by norm_num))) := by
  unfold stAt
  rw [rowSt_of_pos _ _ _ _ h0 (by have := Nat.mod_lt t.val (by norm_num : 0 < 50); omega)]
  have e : rowOf ⟨t.val - 1, Nat.lt_of_le_of_lt (Nat.sub_le _ _) t.isLt⟩ r = rowOf t r := rowOf_pred t h0 r
  show _ = next _ _ (rowSt (lg D.xa D.wa (rowOf ⟨t.val - 1, _⟩ r)) (D.ya (rowOf ⟨t.val - 1, _⟩ r)).val ((t.val - 1) % 50) _) _
  rw [e]
  congr 1
  exact rowSt_congr _ _ (by omega) _ _

theorem stAt_first (t : Fin cfg0.N) (h0 : t.val % 50 = 0) (r : Fin 1024) :
    stAt m c D t r = first (D.ya (rowOf t r)).val (blk (rowL m c D t r) (t.val % 50) (Nat.mod_lt _ (by norm_num))) := by
  unfold stAt
  rw [rowSt_congr _ _ h0 _ (by norm_num), rowSt_zero, blk_congr _ h0 _ (by norm_num)]

/-! ## The induction over the points -/

theorem holds_aux (k : ℕ) : ∀ (t : Fin cfg0.N), t.val = k → ∀ r : Fin 1024,
    Holds (outsAt0 m c t.val t.isLt) (stAt m c D t r) r := by
  induction k with
  | zero =>
    intro t hk r
    have h0 : t.val % 50 = 0 := by omega
    have h1 : ¬t.val % 50 = 49 := by omega
    obtain ⟨e0, e1, e2, e3⟩ := outsA m c t h0 h1
    obtain ⟨f0, f1, f2, f3⟩ := first_val (grid0.coords t) ((coords1 t).trans h0) (X0 m c t) (X1 m c t) (X2 m c t)
      (fun r k => D.xa (rowOf t r) k) (fun u k => D.wa (colOf t u) k) (hx_at m c D t) (hw_at m c D t) r
    rw [y_at m c D t r, blogit_at m c D t r, ← stAt_first m c D t h0 r] at f0 f1 f2 f3
    exact ⟨by rw [e0]; exact f0, by rw [e1]; exact f1, by rw [e2]; exact f2, by rw [e3]; exact f3⟩
  | succ k ih =>
    intro t hk r
    by_cases h0 : t.val % 50 = 0
    · have h1 : ¬t.val % 50 = 49 := by omega
      obtain ⟨e0, e1, e2, e3⟩ := outsA m c t h0 h1
      obtain ⟨f0, f1, f2, f3⟩ := first_val (grid0.coords t) ((coords1 t).trans h0) (X0 m c t) (X1 m c t) (X2 m c t)
        (fun r k => D.xa (rowOf t r) k) (fun u k => D.wa (colOf t u) k) (hx_at m c D t) (hw_at m c D t) r
      rw [y_at m c D t r, blogit_at m c D t r, ← stAt_first m c D t h0 r] at f0 f1 f2 f3
      exact ⟨by rw [e0]; exact f0, by rw [e1]; exact f1, by rw [e2]; exact f2, by rw [e3]; exact f3⟩
    · obtain ⟨p0, p1, p2, p3⟩ := ih ⟨t.val - 1, Nat.lt_of_le_of_lt (Nat.sub_le _ _) t.isLt⟩ (by show t.val - 1 = k; omega) r
      obtain ⟨f0, f1, f2, f3⟩ := next_val (grid0.coords t) (X0 m c t) (X1 m c t) (X2 m c t) (P0 m c t) (P1 m c t) (P2 m c t) (P3 m c t)
        (fun r k => D.xa (rowOf t r) k) (fun u k => D.wa (colOf t u) k) (hx_at m c D t) (hw_at m c D t) r
        (stAt m c D ⟨t.val - 1, Nat.lt_of_le_of_lt (Nat.sub_le _ _) t.isLt⟩ r) p0 p1 p2 p3
      rw [y_at m c D t r, blogit_at m c D t r, coords1 t, ← stAt_next m c D t h0 r] at f0 f1 f2 f3
      by_cases h1 : t.val % 50 = 49
      · obtain ⟨⟨e0, e1, e2, e3⟩, -, -⟩ := outsC m c t h0 h1
        exact ⟨by rw [e0]; exact f0, by rw [e1]; exact f1, by rw [e2]; exact f2, by rw [e3]; exact f3⟩
      · obtain ⟨e0, e1, e2, e3⟩ := outsB m c t h0 h1
        exact ⟨by rw [e0]; exact f0, by rw [e1]; exact f1, by rw [e2]; exact f2, by rw [e3]; exact f3⟩

/-- After every point the scratch buffers hold the scan's state. -/
theorem holds_at (t : Fin cfg0.N) (r : Fin 1024) : Holds (outsAt0 m c t.val t.isLt) (stAt m c D t r) r :=
  holds_aux m c D t.val t rfl r

/-- At a last column block the two output blocks hold the row results of the final state. -/
theorem out_at (t : Fin cfg0.N) (h1 : t.val % 50 = 49) (r : Fin 1024) :
    (outsAt0 m c t.val t.isLt).1 (ix2 r (0 : Fin 1)) = ((nllOf (stAt m c D t r) : ℝ) : EReal)
    ∧ (outsAt0 m c t.val t.isLt).2.1 (ix2 r (0 : Fin 1)) = ((lpOf (stAt m c D t r) : ℝ) : EReal) := by
  have h0 : ¬t.val % 50 = 0 := by omega
  obtain ⟨⟨e0, e1, e2, e3⟩, o3, o4⟩ := outsC m c t h0 h1
  obtain ⟨g0, g1, g2, g3⟩ := holds_at m c D t r
  rw [e0] at g0; rw [e1] at g1; rw [e2] at g2; rw [e3] at g3
  obtain ⟨r3, r4⟩ := out_val (newMx (X0 m c t) (X1 m c t) (P0 m c t)) (newSe (X0 m c t) (X1 m c t) (P0 m c t) (P1 m c t))
    (newSl (X0 m c t) (X1 m c t) (P2 m c t)) (newTr (grid0.coords t) (X0 m c t) (X1 m c t) (X2 m c t) (P3 m c t)) r
    (stAt m c D t r) (rowSt_se_pos _ _ _ _) g0 g1 g2 g3
  exact ⟨by rw [o3]; exact r3, by rw [o4]; exact r4⟩

end Cert.KernelIdeal.XV

end
-- ==== Proof.KArrays.lean ====
/-
  The two result arrays of the kernel after the region. Each is written back only at the last column block of a row
  block, 1024 rows at a time; what is written there is the row results of the finished scans (`out_at`), and the four
  row blocks cover the 4096 rows. So the first array holds, at row `n`, the negative log-likelihood of row `n`, and the
  second the row's sum of log-probabilities.
-/
import proofs.«409617_j66133906423975_1_alg».proof.Proof.KInv
import Idealize.ShloMosaic.Lib.Pipeline.Value

noncomputable section

namespace Cert.KernelIdeal.XV

open Idealize.ShloMosaic Idealize.ShloMosaic.TcCoe Idealize.SL.Sem Idealize.ShloMosaic.ValueIdx
open Idealize.ShloMosaic.Pipeline (Dat)
open Cert.KernelIdeal Cert.KernelIdeal.Gen Cert.Xent

variable (m : (ℓ : Loc nD τ sig) → Buf (Elt Ideal) ℓ) (c : Dev nD)
variable (D : Data (m ((c : Thread nD τ).loc main_arg0)) (m ((c : Thread nD τ).loc main_arg1)) (m ((c : Thread nD τ).loc main_arg2)))

/-- The finished scan of row `n`. -/
def rowFin (n : Fin 4096) : St := rowSt (lg D.xa D.wa n) (D.ya n).val 49 (by norm_num)

/-- The first result array: row `n`'s negative log-likelihood. -/
def nllArr : S4096x1.Idx → EReal := fun j => ((nllOf (rowFin m c D ⟨(j 0).val, idx2_lt0 j⟩) : ℝ) : EReal)

/-- The second result array: row `n`'s sum of log-probabilities. -/
def lpArr : S4096x1.Idx → EReal := fun j => ((lpOf (rowFin m c D ⟨(j 0).val, idx2_lt0 j⟩) : ℝ) : EReal)

theorem nllArr_apply (n : Fin 4096) : nllArr m c D (ix2 n (0 : Fin 1)) = ((nllOf (rowFin m c D n) : ℝ) : EReal) := rfl
theorem lpArr_apply (n : Fin 4096) : lpArr m c D (ix2 n (0 : Fin 1)) = ((lpOf (rowFin m c D n) : ℝ) : EReal) := rfl

/-- At a last column block the state of row `r` of the block is the finished scan of row `1024 i + r`. -/
theorem stAt_last (t : Fin cfg0.N) (h1 : t.val % 50 = 49) (r : Fin 1024) : stAt m c D t r = rowFin m c D (rowOf t r) := by
  unfold stAt rowFin
  exact rowSt_congr _ _ h1 _ _

theorem index3 : ∀ t : Fin cfg0.N, win0_3.index t 0 = t.val / 50 ∧ win0_3.index t 1 = 0 :=
  (by decide +kernel : ∀ t : Fin grid0.N, win0_3.index t 0 = t.val / 50 ∧ win0_3.index t 1 = 0)

theorem index4 : ∀ t : Fin cfg0.N, win0_4.index t 0 = t.val / 50 ∧ win0_4.index t 1 = 0 :=
  (by decide +kernel : ∀ t : Fin grid0.N, win0_4.index t 0 = t.val / 50 ∧ win0_4.index t 1 = 0)

/-- Row `r` of the output block of point `t` sits at row `1024 i + r` of the array. -/
theorem emb3 (t : Fin cfg0.N) (r : Fin 1024) :
    ((cfg0.win 3).blk t).view.emb (ix2 r (0 : Fin 1)) = ix2 (rowOf t r) (0 : Fin 1) := by
  have hi := index3 t
  funext a
  apply Fin.ext
  match a with
  | ⟨0, _⟩ => show win0_3.index t 0 * 1024 + 1 * r.val = 1024 * (t.val / 50) + r.val; rw [hi.1]; omega
  | ⟨1, _⟩ => show win0_3.index t 1 * 1 + 1 * 0 = 0; rw [hi.2]

theorem emb4 (t : Fin cfg0.N) (r : Fin 1024) :
    ((cfg0.win 4).blk t).view.emb (ix2 r (0 : Fin 1)) = ix2 (rowOf t r) (0 : Fin 1) := by
  have hi := index4 t
  funext a
  apply Fin.ext
  match a with
  | ⟨0, _⟩ => show win0_4.index t 0 * 1024 + 1 * r.val = 1024 * (t.val / 50) + r.val; rw [hi.1]; omega
  | ⟨1, _⟩ => show win0_4.index t 1 * 1 + 1 * 0 = 0; rw [hi.2]

/-- What a last column block writes back to the first array is its block of `nllArr`. -/
theorem flushed3_eq (t : Fin cfg0.N) (hf : (cfg0.win 3).flush t = true) :
    (dats m 0 c).flushed 3 t = ((cfg0.win 3).blk t).view.read (Elt Ideal) (nllArr m c D) := by
  have h1 : t.val % 50 = 49 := (flush0_3 t).mp hf
  show (cfg0.win 3).cut (grid0.coords t) ((dats m 0 c).after 3 t) = _
  rw [after0_3]
  funext j
  revert j
  show ∀ j : S1024x1.Idx, (outsAt0 m c t.val t.isLt).1 j = nllArr m c D (((cfg0.win 3).blk t).view.emb j)
  intro j
  obtain ⟨r, z, rfl⟩ : ∃ (r : Fin 1024) (z : Fin 1), j = ix2 r z := ⟨j 0, j 1, eq_ix2 j⟩
  obtain rfl : z = 0 := Subsingleton.elim _ _
  rw [(out_at m c D t h1 r).1, emb3, nllArr_apply, stAt_last m c D t h1 r]

theorem flushed4_eq (t : Fin cfg0.N) (hf : (cfg0.win 4).flush t = true) :
    (dats m 0 c).flushed 4 t = ((cfg0.win 4).blk t).view.read (Elt Ideal) (lpArr m c D) := by
  have h1 : t.val % 50 = 49 := (flush0_4 t).mp hf
  show (cfg0.win 4).cut (grid0.coords t) ((dats m 0 c).after 4 t) = _
  rw [after0_4]
  funext j
  revert j
  show ∀ j : S1024x1.Idx, (outsAt0 m c t.val t.isLt).2.1 j = lpArr m c D (((cfg0.win 4).blk t).view.emb j)
  intro j
  obtain ⟨r, z, rfl⟩ : ∃ (r : Fin 1024) (z : Fin 1), j = ix2 r z := ⟨j 0, j 1, eq_ix2 j⟩
  obtain rfl : z = 0 := Subsingleton.elim _ _
  rw [(out_at m c D t h1 r).2, emb4, lpArr_apply, stAt_last m c D t h1 r]

/-- An index of the array is in point `t`'s block iff each coordinate is in the block's range. -/
theorem mem_blk3 (t : Fin cfg0.N) (i : S4096x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v1_0).slice (win0_3.rect t)).set ↔ _
  rw [View.set_slice_whole, Rect.mem_set_unit]
  exact Iff.rfl

theorem mem_blk4 (t : Fin cfg0.N) (i : S4096x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v1_1).slice (win0_4.rect t)).set ↔ _
  rw [View.set_slice_whole, Rect.mem_set_unit]
  exact Iff.rfl

/-- The last column block of the row block that holds row `(i 0)`. -/
def lastOf (i : S4096x1.Idx) : Fin cfg0.N :=
  ⟨50 * ((i 0).val / 1024) + 49, by
    have h : (i 0).val < 4096 := idx2_lt0 i
    show 50 * ((i 0).val / 1024) + 49 < grid0.N
    rw [N_0]; omega⟩

theorem lastOf_val (i : S4096x1.Idx) : (lastOf i).val = 50 * ((i 0).val / 1024) + 49 := rfl

/-- The first result array after the region. -/
theorem final3 : (dats m 0 c).arrAt 3 cfg0.N = nllArr m c D :=
  (dats m 0 c).arrAt_eq_of_cover 3 (nllArr m c D) (flushed3_eq m c D) fun i =>
    ⟨lastOf i, (flush0_3 (lastOf i)).mpr (by rw [lastOf_val]; omega), by
      rw [mem_blk3]
      have hi := index3 (lastOf i)
      have hv := lastOf_val i
      have h0 : (i 0).val < 4096 := idx2_lt0 i
      have h1 : (i 1).val < 1 := idx2_lt1 i
      intro a
      match a with
      | ⟨0, _⟩ => show win0_3.index (lastOf i) 0 * 1024 ≤ (i 0).val ∧ (i 0).val < win0_3.index (lastOf i) 0 * 1024 + 1024
                  rw [hi.1, hv]; omega
      | ⟨1, _⟩ => show win0_3.index (lastOf i) 1 * 1 ≤ (i 1).val ∧ (i 1).val < win0_3.index (lastOf i) 1 * 1 + 1
                  rw [hi.2]; omega⟩

/-- The second result array after the region. -/
theorem final4 : (dats m 0 c).arrAt 4 cfg0.N = lpArr m c D :=
  (dats m 0 c).arrAt_eq_of_cover 4 (lpArr m c D) (flushed4_eq m c D) fun i =>
    ⟨lastOf i, (flush0_4 (lastOf i)).mpr (by rw [lastOf_val]; omega), by
      rw [mem_blk4]
      have hi := index4 (lastOf i)
      have hv := lastOf_val i
      have h0 : (i 0).val < 4096 := idx2_lt0 i
      have h1 : (i 1).val < 1 := idx2_lt1 i
      intro a
      match a with
      | ⟨0, _⟩ => show win0_4.index (lastOf i) 0 * 1024 ≤ (i 0).val ∧ (i 0).val < win0_4.index (lastOf i) 0 * 1024 + 1024
                  rw [hi.1, hv]; omega
      | ⟨1, _⟩ => show win0_4.index (lastOf i) 1 * 1 ≤ (i 1).val ∧ (i 1).val < win0_4.index (lastOf i) 1 * 1 + 1
                  rw [hi.2]; omega⟩

end Cert.KernelIdeal.XV

end
-- ==== Proof.KTail.lean ====
/-
  The kernel program's result. After the region the host takes the mean of each result array over the 4096 rows, divides
  the second mean by 32000, and combines the two with the smoothing weights. With the arrays known row by row
  (`final3`, `final4`) the two means are real numbers, and by the scan's final state (`nllOf_last`, `lpOf_last`) they are
  the mean of minus the log-softmax at the label and the mean of the log-softmax over all entries.
-/
import proofs.«409617_j66133906423975_1_alg».proof.Proof.KArrays
import proofs.«409617_j66133906423975_1_alg».proof.Proof.Consts
import Idealize.ShloMosaic.Lib.StableHlo.Run
import Idealize.ShloMosaic.PureOps.Ideal.Laws

noncomputable section

namespace Cert.KernelIdeal.XV

open Idealize.ShloMosaic Idealize.ShloMosaic.TcCoe Idealize.SL.Sem Idealize.ShloMosaic.ValueIdx
open Cert.KernelIdeal Cert.KernelIdeal.Gen Cert.Xent

/-- The sum of a column array whose rows are real numbers is the sum of those numbers. -/
theorem sum_col (a : S4096x1.Idx → EReal) (f : Fin 4096 → ℝ) (ha : ∀ n : Fin 4096, a (ix2 n (0 : Fin 1)) = ((f n : ℝ) : EReal)) :
    ∑ j : S4096x1.Idx, a j = ((∑ n, f n : ℝ) : EReal) := by
  rw [sum_idx2, coe_sum]
  refine Finset.sum_congr rfl fun n _ => ?_
  rw [Fin.sum_univ_one]
  exact ha n

/-- The mean over the 4096 rows of a column array of real numbers. -/
theorem mean_col (a : FVec Ideal S4096x1 .f32) (f : Fin 4096 → ℝ)
    (ha : ∀ n : Fin 4096, a (ix2 n (0 : Fin 1)) = ((f n : ℝ) : EReal)) (i : S_.Idx) :
    Host.divf (Host.reduceAdd a (constant (F := Ideal) S_ .f32 0x00000000#32) reducesTo_S4096x1_S_d0_1 h_S_)
        (constant (F := Ideal) S_ .f32 0x45800000#32) i
      = (((∑ n, f n) / 4096 : ℝ) : EReal) := by
  show Ideal.div (Host.reduceAdd a (constant (F := Ideal) S_ .f32 0x00000000#32) reducesTo_S4096x1_S_d0_1 h_S_ i) (Ideal.ofBits .f32 0x45800000#32) = _
  have hsum : Host.reduceAdd a (constant (F := Ideal) S_ .f32 0x00000000#32) reducesTo_S4096x1_S_d0_1 h_S_ i = ((∑ n, f n : ℝ) : EReal) := by
    simp only [Host.reduceAdd, Ideal.hostReduceAdd_def]
    rw [Ideal.hostReduceAdd_total reducesTo_S4096x1_S_d0_1 (fun b => b.elim0) a _ i]
    show Ideal.ofBits .f32 0x00000000#32 + _ = _
    rw [Ideal.ofBits_zero_f32, zero_add]
    exact sum_col a f ha
  rw [hsum, Consts.ofBits_4096, Ideal.div_coe (by norm_num : (4096 : ℝ) ≠ 0), ← EReal.coe_mul]
  congr 1
  ring

variable (m : (ℓ : Loc nD τ sig) → Buf (Elt Ideal) ℓ) (c : Dev nD)
variable (D : Data (m ((c : Thread nD τ).loc main_arg0)) (m ((c : Thread nD τ).loc main_arg1)) (m ((c : Thread nD τ).loc main_arg2)))

theorem nllArr_row (n : Fin 4096) : nllArr m c D (ix2 n (0 : Fin 1)) = ((-(lsm (lg D.xa D.wa n) (D.ya n)) : ℝ) : EReal) := by
  rw [nllArr_apply]; unfold rowFin; rw [nllOf_last]

theorem lpArr_row (n : Fin 4096) : lpArr m c D (ix2 n (0 : Fin 1)) = ((∑ v, lsm (lg D.xa D.wa n) v : ℝ) : EReal) := by
  rw [lpArr_apply]; unfold rowFin; rw [lpOf_last]

/-- The kernel program's result: the smoothed loss of the two means. -/
theorem tail_eq :
    Pipeline.afterTail₀ cfgs (dats m) 0 (V0 m) [hostOps1] c main_v9
      = fun _ => lossE (meanNll D.xa D.wa D.ya) (meanLp D.xa D.wa) := by
  have e3 : Pipeline.withArrays (cfgs 0).spec c (V0 m c) (fun w => (dats m 0 c).arrAt w (cfgs 0).N) (Proc.devRef .tc main_v1_0) = nllArr m c D :=
    (Pipeline.withArrays_arr spec0 launch0.win.arr_inj c _ _ 3).trans (final3 m c D)
  have e4 : Pipeline.withArrays (cfgs 0).spec c (V0 m c) (fun w => (dats m 0 c).arrAt w (cfgs 0).N) (Proc.devRef .tc main_v1_1) = lpArr m c D :=
    (Pipeline.withArrays_arr spec0 launch0.win.arr_inj c _ _ 4).trans (final4 m c D)
  unfold Pipeline.afterTail₀
  show StableHlo.after hostOps1 _ (Proc.devRef .tc main_v9) = _
  after_results
  rw [e3, e4]
  funext i
  show (Host.divf (Host.reduceAdd (nllArr m c D) (constant (F := Ideal) S_ .f32 0x00000000#32) reducesTo_S4096x1_S_d0_1 h_S_)
          (constant (F := Ideal) S_ .f32 0x45800000#32) i) * Ideal.ofBits .f32 0x3F666666#32
      - Ideal.div (Host.divf (Host.reduceAdd (lpArr m c D) (constant (F := Ideal) S_ .f32 0x00000000#32) reducesTo_S4096x1_S_d0_1 h_S_)
          (constant (F := Ideal) S_ .f32 0x45800000#32) i) (Ideal.ofBits .f32 0x46FA0000#32) * Ideal.ofBits .f32 0x3DCCCCCD#32 = _
  rw [mean_col (nllArr m c D) _ (nllArr_row m c D) i, mean_col (lpArr m c D) _ (lpArr_row m c D) i,
    Consts.ofBits_32000, Ideal.div_coe (by norm_num : (32000 : ℝ) ≠ 0), ← EReal.coe_mul]
  unfold lossE meanNll meanLp
  congr 3
  ring

end Cert.KernelIdeal.XV

end
-- ==== Proof.KRun.lean ====
/-
  The kernel program's run at the extended reals, read: every weakly fair execution ends with the result at the
  smoothed loss of the two means of the arguments' real data, the arguments unchanged.
-/
import proofs.«409617_j66133906423975_1_alg».proof.Proof.KTail

noncomputable section

namespace Cert.KernelIdeal.XV

open Idealize.ShloMosaic Idealize.ShloMosaic.TcCoe Idealize.SL.Sem
open Cert.KernelIdeal Cert.KernelIdeal.Gen Cert.Xent

theorem run (m : (ℓ : Loc nD τ sig) → Buf (Elt Ideal) ℓ) (ρ : Dev nD → PrngReg)
    (D : (c : Dev nD) → Data (m ((c : Thread nD τ).loc main_arg0)) (m ((c : Thread nD τ).loc main_arg1)) (m ((c : Thread nD τ).loc main_arg2))) :
    θ_run defs (onTc (τ := τ) (main (F := Ideal))) ⟨m, fun _ => 0, ρ⟩ (fun r => ∀ c : Dev nD,
      r.2.mem ((c.tc : Thread nD τ).loc main_v9) = (fun _ => lossE (meanNll (D c).xa (D c).wa (D c).ya) (meanLp (D c).xa (D c).wa))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v9 (Pipeline.mem_restRefs_of main_v9 (by decide) (by decide))).trans (tail_eq m c (D c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.XV

end
-- ==== Proof.PreData.lean ====
/-
  From the printed precondition to real data: every entry of the two float arguments is finite, hence a real
  number, and every label is at least 0 and below 32000, hence a column.
-/
import proofs.«409617_j66133906423975_1_alg».proof.Pre_finite_inputs
import proofs.«409617_j66133906423975_1_alg».proof.Proof.Gen.Pre_finite_inputs
import proofs.«409617_j66133906423975_1_alg».proof.Proof.Data
import proofs.«409617_j66133906423975_1_alg».proof.Proof.Consts
import Idealize.ShloMosaic.Lib.ReduceAll
import Idealize.ShloMosaic.Lib.StableHlo.Predicate
import Idealize.ShloMosaic.PureOps.Ideal.Laws

noncomputable section

namespace Cert.Xent

open Idealize.ShloMosaic Idealize.ShloMosaic.ValueIdx

/-- An extended real whose absolute value `max x (-x)` is below `+∞` is a real number: it is not `+∞`, and it is
    not `-∞` because its negation is not `+∞`. -/
theorem real_of_abs_lt_top (x : EReal)
    (h : Ideal.cmp .olt (max x (-x)) ⊤ = 1#1) : x = ((x.toReal : ℝ) : EReal) := by
  have hlt : max x (-x) < ⊤ := by
    simpa [Ideal.cmp, StableHlo.Predicate.ofBool_eq_one_iff] using h
  rw [max_lt_iff] at hlt
  refine (EReal.coe_toReal (ne_of_lt hlt.1) ?_).symm
  intro hb
  rw [hb] at hlt
  exact absurd hlt.2 (by simp)

/-- A 32-bit word that, read as a signed number, is at least 0 and below 32000 is the word of a natural number
    below 32000: its sign bit is clear, so its signed and unsigned readings agree. -/
theorem label_of_signed_range (y : BitVec 32)
    (h : IntOp.andi (IntOp.cmpi .sge y 0#32) (IntOp.cmpi .slt y 32000#32) = 1#1) :
    y.toNat < 32000 ∧ y = BitVec.ofNat 32 y.toNat := by
  obtain ⟨h0, h1⟩ := IntOp.andi_eq_one.1 h
  have h0' : (0 : Int) ≤ y.toInt := by
    simpa [IntOp.cmpi, StableHlo.Predicate.ofBool_eq_one_iff, BitVec.sle] using h0
  have h1' : y.toInt < 32000 := by
    simpa [IntOp.cmpi, StableHlo.Predicate.ofBool_eq_one_iff, BitVec.slt] using h1
  have hy := y.isLt
  rw [BitVec.toInt_eq_toNat_cond] at h0' h1'
  refine ⟨?_, by simp⟩
  split at h0' <;> omega

/-- The precondition is the conjunction of three "for all entries" statements; each conjunct, read at one entry,
    says that entry is finite (the two float arguments) or in range (the labels). The real data are the entries'
    real parts and the labels' values. -/
theorem data_of_pre [Cert.Pre_finite_inputs.Facts]
    (X : FVec Ideal ⟨2, ![4096, 1024]⟩ .f32) (Wt : FVec Ideal ⟨2, ![32000, 1024]⟩ .f32) (Y : IVec ⟨1, ![4096]⟩ 32)
    (h : Cert.Pre_finite_inputs.fn (F := Ideal) X Wt Y = fun _ => 1#1) : Nonempty (Data X Wt Y) := by
  haveI : Subsingleton Cert.Pre_finite_inputs.S_.Idx := ⟨fun a b => funext fun d => d.elim0⟩
  have h0 := congrFun h ix0
  dsimp only [Cert.Pre_finite_inputs.fn] at h0
  obtain ⟨hxw, hy⟩ := IntOp.andi_eq_one.1 h0
  obtain ⟨hx, hw⟩ := IntOp.andi_eq_one.1 hxw
  have hX : ∀ i, X i = (((X i).toReal : ℝ) : EReal) := fun i => by
    have e := Host.reduce_andi_all _ _ _ _ ix0 hx i
    apply real_of_abs_lt_top
    rw [← Consts.ofBits_pos_inf]
    exact e
  have hW : ∀ i, Wt i = (((Wt i).toReal : ℝ) : EReal) := fun i => by
    have e := Host.reduce_andi_all _ _ _ _ ix0 hw i
    apply real_of_abs_lt_top
    rw [← Consts.ofBits_pos_inf]
    exact e
  have hY : ∀ i, (Y i).toNat < 32000 ∧ Y i = BitVec.ofNat 32 (Y i).toNat := fun i => by
    have e := Host.reduce_andi_all _ _ _ _ ix0 hy i
    exact label_of_signed_range _ e
  exact ⟨{ xa := fun n k => (X (ix2 n k)).toReal
           wa := fun v k => (Wt (ix2 v k)).toReal
           ya := fun n => ⟨(Y (ix1 n)).toNat, (hY _).1⟩
           hX := fun n k => hX _
           hW := fun v k => hW _
           hY := fun n => (hY _).2 }⟩

end Cert.Xent

end
-- ==== Proof.RefRun.lean ====
/-
  The reference program's run, read back in three stretches of its operation list: the product and the
  log-softmax (the first 16 operations), the gather at the labels (the next 23), and the two means and the loss
  (the last 15). Each stretch is read over an arbitrary valuation, with the earlier stretches' results as
  hypotheses, so that no term ever holds the log-softmax more than once.
-/
import proofs.«409617_j66133906423975_1_alg».proof.Proof.RefReadP
import Idealize.ShloMosaic.Lib.StableHlo.Run
import Idealize.ShloMosaic.Lib.Pipeline.Frame

noncomputable section

namespace Cert.ReferenceIdeal.XRun

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-- A fold over a list is the fold over three consecutive stretches of it. -/
theorem after_split3 {τ : Topo} {sig : RefSig} {Val : EltTy → Type} (l : List (HloOp τ sig Val)) (a b : ℕ)
    (V : Valuation τ sig Val) :
    after l V = after (l.drop (a + b)) (after ((l.drop a).take b) (after (l.take a) V)) := by
  have h1 : l = l.take a ++ ((l.drop a).take b ++ l.drop (a + b)) := by
    rw [← List.drop_drop, List.take_append_drop, List.take_append_drop]
  calc after l V = after (l.take a ++ ((l.drop a).take b ++ l.drop (a + b))) V := by rw [← h1]
    _ = _ := by rw [after_append, after_append]

/-- A transport there and back is the identity. -/
theorem cast_cast_symm {α β : Type} (h : α = β) (h' : β = α) (v : β) : cast h (cast h' v) = v := by
  cases h; rfl

/-! ## The first stretch: the product and its log-softmax -/

set_option maxRecDepth 8192 in
/-- The first stretch leaves the log-softmax of the product of the two float arguments. -/
theorem stage1 (V : Valuation τ sig (Elt F)) :
    after ((ops (F := F)).take 16) V (Proc.devRef .tc main_v1)
      = val_main_v1 (F := F) (V (Proc.devRef .tc main_arg0)) (V (Proc.devRef .tc main_arg1)) := by
  simp only [ops, List.take_succ_cons, List.take_zero]
  after_results_simp
  simp only [TRef.ofBuf, TRef.toBuf, cast_cast_symm]
  simp only [cast_eq]
  simp only [val_main_v1, val_main_call0_v10, val_main_call0_v9, val_main_call0_v8, val_main_call0_v7, val_main_call0_cst_1, val_main_call0_v6, val_main_call0_v5, val_main_call0_v4, val_main_call0_v3, val_main_call0_v2, val_main_call0_v1, val_main_call0_cst_0, val_main_call0_v0, val_main_call0_cst, val_main_v0]

set_option maxRecDepth 8192 in
/-- The first stretch leaves the labels as they were. -/
theorem stage1_arg2 (V : Valuation τ sig (Elt F)) :
    after ((ops (F := F)).take 16) V (Proc.devRef .tc main_arg2) = V (Proc.devRef .tc main_arg2) := by
  simp only [ops, List.take_succ_cons, List.take_zero]
  after_results_simp

/-! ## The second stretch: the log-softmax gathered at the labels -/

set_option maxRecDepth 8192 in
/-- The second stretch, from contents whose log-softmax buffer holds the log-softmax, leaves its entries at the labels. -/
theorem stage2 (V : Valuation τ sig (Elt F)) (x0 : (⟨S4096x1024, .f32⟩ : BufTy).Contents (Elt F))
    (x1 : (⟨S32000x1024, .f32⟩ : BufTy).Contents (Elt F))
    (h1 : V (Proc.devRef .tc main_v1) = val_main_v1 (F := F) x0 x1) :
    after (((ops (F := F)).drop 16).take 23) V (Proc.devRef .tc main_v3)
      = val_main_v3 (F := F) x0 x1 (V (Proc.devRef .tc main_arg2)) := by
  simp only [ops, List.drop_succ_cons, List.drop_zero, List.take_succ_cons, List.take_zero]
  after_results_simp
  simp only [TRef.ofBuf, TRef.toBuf, cast_cast_symm]
  simp only [cast_eq]
  rw [h1]
  simp only [val_main_v3, val_main_call1_v14, val_main_call1_cst, val_main_call1_v13, val_main_call1_v12, val_main_call1_c_3, val_main_call1_v11, val_main_call1_v10, val_main_call1_v9, val_main_call1_v8, val_main_call1_v7, val_main_call1_v6, val_main_call1_c_2, val_main_call1_c_1, val_main_call1_v5, val_main_call1_v4, val_main_call1_v3, val_main_call1_v2, val_main_call1_c_0, val_main_call1_v1, val_main_call1_v0, val_main_call1_c, val_main_v2]
  rfl

set_option maxRecDepth 8192 in
/-- The second stretch leaves the log-softmax buffer as it was. -/
theorem stage2_v1 (V : Valuation τ sig (Elt F)) :
    after (((ops (F := F)).drop 16).take 23) V (Proc.devRef .tc main_v1) = V (Proc.devRef .tc main_v1) := by
  simp only [ops, List.drop_succ_cons, List.drop_zero, List.take_succ_cons, List.take_zero]
  after_results_simp

/-! ## The third stretch: the two means and the loss -/

set_option maxRecDepth 8192 in
/-- The third stretch, from contents holding the log-softmax and its entries at the labels, leaves the loss. -/
theorem stage3 (V : Valuation τ sig (Elt F)) (x0 : (⟨S4096x1024, .f32⟩ : BufTy).Contents (Elt F))
    (x1 : (⟨S32000x1024, .f32⟩ : BufTy).Contents (Elt F)) (x2 : (⟨S4096, .i32⟩ : BufTy).Contents (Elt F))
    (h1 : V (Proc.devRef .tc main_v1) = val_main_v1 (F := F) x0 x1)
    (h3 : V (Proc.devRef .tc main_v3) = val_main_v3 (F := F) x0 x1 x2) :
    after ((ops (F := F)).drop 39) V (Proc.devRef .tc main_v12) = val_main_v12 (F := F) x0 x1 x2 := by
  simp only [ops, List.drop_succ_cons, List.drop_zero]
  after_results_simp
  rw [h1, h3]
  simp only [val_main_v12, val_main_v11, val_main_cst_4, val_main_v10, val_main_cst_3, val_main_v9, val_main_cst_2, val_main_v8, val_main_cst_1, val_main_v7, val_main_v6, val_main_cst_0, val_main_v5, val_main_cst, val_main_v4]
  rfl

/-! ## The whole list -/

/-- The whole list read at the loss: the three stretches composed. -/
theorem after_ops_v12 (V : Valuation τ sig (Elt F)) :
    after (ops (F := F)) V (Proc.devRef .tc main_v12)
      = val_main_v12 (F := F) (V (Proc.devRef .tc main_arg0)) (V (Proc.devRef .tc main_arg1))
          (V (Proc.devRef .tc main_arg2)) := by
  have h1 : after (((ops (F := F)).drop 16).take 23) (after ((ops (F := F)).take 16) V) (Proc.devRef .tc main_v1)
      = val_main_v1 (F := F) (V (Proc.devRef .tc main_arg0)) (V (Proc.devRef .tc main_arg1)) :=
    (stage2_v1 _).trans (stage1 V)
  have h3 : after (((ops (F := F)).drop 16).take 23) (after ((ops (F := F)).take 16) V) (Proc.devRef .tc main_v3)
      = val_main_v3 (F := F) (V (Proc.devRef .tc main_arg0)) (V (Proc.devRef .tc main_arg1))
          (V (Proc.devRef .tc main_arg2)) :=
    (stage2 _ _ _ (stage1 V)).trans
      (congrArg (val_main_v3 (F := F) (V (Proc.devRef .tc main_arg0)) (V (Proc.devRef .tc main_arg1))) (stage1_arg2 V))
  exact (congrFun (after_split3 (ops (F := F)) 16 23 V) (Proc.devRef .tc main_v12)).trans (stage3 _ _ _ _ h1 h3)

set_option maxRecDepth 8192 in
/-- No operation writes the first float argument. -/
theorem after_ops_arg0 (V : Valuation τ sig (Elt F)) :
    after (ops (F := F)) V (Proc.devRef .tc main_arg0) = V (Proc.devRef .tc main_arg0) := by
  after_results_simp

set_option maxRecDepth 8192 in
/-- No operation writes the second float argument. -/
theorem after_ops_arg1 (V : Valuation τ sig (Elt F)) :
    after (ops (F := F)) V (Proc.devRef .tc main_arg1) = V (Proc.devRef .tc main_arg1) := by
  after_results_simp

set_option maxRecDepth 8192 in
/-- No operation writes the labels. -/
theorem after_ops_arg2 (V : Valuation τ sig (Elt F)) :
    after (ops (F := F)) V (Proc.devRef .tc main_arg2) = V (Proc.devRef .tc main_arg2) := by
  after_results_simp

/-- On every device, for any float values, from any memory with zero counters: every weakly fair execution of
    the reference program terminates with the loss buffer at the loss of the arguments' launch contents, the
    arguments unchanged. -/
theorem run {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v12) = Cert.ReferenceIdeal.ReadP.val_main_v12 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v12).trans (after_ops_v12 (launchContents m c)),
      (h c main_arg0).trans (after_ops_arg0 (launchContents m c)),
      (h c main_arg1).trans (after_ops_arg1 (launchContents m c)),
      (h c main_arg2).trans (after_ops_arg2 (launchContents m c))⟩)
    (run_seq scopedRefs_eq scopedSems_eq defs main (fun _ => ops) main_eq (fun _ => ops_sub) m ρ)

end Cert.ReferenceIdeal.XRun

end
-- ==== Proof.RefLib.lean ====
/-
  Facts that do not mention the program: an index of a reduced array with the reduced coordinate put back; the
  gather that reads, in each row of a matrix, the column its start index names; and what the comparisons and the
  clamp do to the word of a label that lies in the range of the columns.
-/
import Idealize.ShloMosaic.Lib.ValueIdx
import Idealize.ShloMosaic.Lib.ValueIdxRank1
import Idealize.ShloMosaic.Lib.Affine
import Idealize.ShloMosaic.Lib.StableHlo.Predicate
import Idealize.ShloMosaic.PureOps.Ideal.Laws

noncomputable section

namespace Cert.Xent.RefLib

open Idealize.ShloMosaic Idealize.ShloMosaic.ValueIdx

/-! ## Indices -/

/-- Row `a` of an [m × n] matrix with column `k` put back is the entry (a, k). -/
theorem lift_row {m n : Nat} (h : (⟨2, ![m, n]⟩ : Shape).Reduces [1] (⟨1, ![m]⟩ : Shape)) (a : Fin m)
    (k : Fin ((⟨2, ![m, n]⟩ : Shape).size 1)) : h.lift (ix1 a) k = ix2 a (⟨k.val, k.isLt⟩ : Fin n) := by
  funext c; apply Fin.ext
  fin_cases c <;> rfl

/-- Entry (a, b) of an [m × 1] matrix with the last coordinate `k` of an [m × 1 × 1] array put back is (a, b, k). -/
theorem lift_last {m : Nat} (h : (⟨3, ![m, 1, 1]⟩ : Shape).Reduces [2] (⟨2, ![m, 1]⟩ : Shape)) (a : Fin m) (b : Fin 1)
    (k : Fin ((⟨3, ![m, 1, 1]⟩ : Shape).size 2)) : h.lift (ix2 a b) k = ix3 a b (⟨k.val, k.isLt⟩ : Fin 1) := by
  funext c; apply Fin.ext
  fin_cases c <;> rfl

/-! ## The gather of one entry per row

What taking, in each row `n` of an [N × V] matrix, the entry in the column `idx[n]` lowers to: a gather whose
operand axis 0 is a batching axis paired with axis 0 of the start indices [N × 1 × 1], whose operand axis 1 is
collapsed and is the one the start index names, with slices of one entry and no offset axes. Result entry (n, 0)
is the operand at row `n` and at the column `idx[n, 0, 0]` read signed and clamped into [0, V − 1]. -/

/-- Those dimension numbers. -/
abbrev rowDims (N V : Nat) (wf : GatherDims.WF ⟨2, ![N, V]⟩ ⟨3, ![N, 1, 1]⟩ ⟨2, ![N, 1]⟩ [] [1] [0] [1] [0] 2 ![1, 1]) :
    GatherDims ⟨2, ![N, V]⟩ ⟨3, ![N, 1, 1]⟩ ⟨2, ![N, 1]⟩ where
  offsetDims := []
  collapsedSliceDims := [1]
  operandBatchingDims := [0]
  startIndicesBatchingDims := [0]
  startIndexMap := [1]
  indexVectorDim := 2
  sliceSizes := ![1, 1]
  wf := wf

/-- The gather read at (n, 0). On axis 0 the operand index is the batch coordinate `n` (no start, no offset); on
    axis 1 it is the clamped start index (no batch coordinate, and no offset because the axis is collapsed). -/
theorem gather_row_apply {α : Type} {N V w : Nat} (hV : 0 < V)
    (wf : GatherDims.WF ⟨2, ![N, V]⟩ ⟨3, ![N, 1, 1]⟩ ⟨2, ![N, 1]⟩ [] [1] [0] [1] [0] 2 ![1, 1])
    (x : (⟨2, ![N, V]⟩ : Shape).Idx → α) (idx : IVec ⟨3, ![N, 1, 1]⟩ w) (n : Fin N) :
    Host.gather (rowDims N V wf) x idx (ix2 n 0)
      = x (ix2 n ⟨min (idx (ix3 n 0 0)).toInt.toNat (V - 1), by omega⟩) := by
  unfold Host.gather
  congr 1
  funext a
  refine Fin.ext ?_
  show (rowDims N V wf).start (ix2 n 0) idx a + (rowDims N V wf).batchCoord (ix2 n 0) a + (rowDims N V wf).offCoord (ix2 n 0) a = _
  match a with
  | ⟨0, _⟩ =>
    have hb : (⟨0, by decide⟩ : Fin 2) ∈ (rowDims N V wf).operandBatchingDims := List.mem_singleton.mpr rfl
    rw [GatherDims.start_batching _ _ _ _ hb,
      GatherDims.offCoord_eq_zero _ _ _ (fun h => ((GatherDims.mem_sKept _ _).mp h).2 hb)]
    simp only [Nat.zero_add, Nat.add_zero]
    unfold GatherDims.batchCoord
    rw [dif_pos hb]
    rfl
  | ⟨1, _⟩ =>
    have hb : (⟨1, by decide⟩ : Fin 2) ∉ (rowDims N V wf).operandBatchingDims :=
      fun h => absurd (congrArg Fin.val (List.mem_singleton.mp h)) Nat.one_ne_zero
    have hc : (⟨1, by decide⟩ : Fin 2) ∈ (rowDims N V wf).collapsedSliceDims := List.mem_singleton.mpr rfl
    rw [GatherDims.batchCoord_eq_zero _ _ _ hb,
      GatherDims.offCoord_eq_zero _ _ _ (fun h => ((GatherDims.mem_sKept _ _).mp h).1 hc)]
    simp only [Nat.add_zero]
    unfold GatherDims.start
    rw [dif_pos (show (⟨1, by decide⟩ : Fin 2) ∈ (rowDims N V wf).startIndexMap from List.mem_singleton.mpr rfl)]
    have hsi : (rowDims N V wf).siIdx (ix2 n 0) ⟨List.idxOf (⟨1, by decide⟩ : Fin 2) (rowDims N V wf).startIndexMap,
        List.idxOf_lt_length_iff.2 (List.mem_singleton.mpr rfl)⟩ = ix3 n 0 0 := by
      funext b; refine Fin.ext ?_
      match b with
      | ⟨0, _⟩ => rfl
      | ⟨1, _⟩ => rfl
      | ⟨2, _⟩ => rfl
    rw [hsi]
    rfl

/-! ## The word of a label in range -/

section Label
variable (y : ℕ) (hy : y < 32000)
include hy

theorem label_toNat : (BitVec.ofNat 32 y).toNat = y := by
  rw [BitVec.toNat_ofNat]; exact Nat.mod_eq_of_lt (by omega)

/-- A label in range is not negative, so the wrap-around of negative labels leaves it as it is. -/
theorem label_wrap :
    Scalar.select (IntOp.cmpi .slt (BitVec.ofNat 32 y) 0#32) (IntOp.addi (BitVec.ofNat 32 y) 32000#32) (BitVec.ofNat 32 y)
      = BitVec.ofNat 32 y := by
  have h0 : IntOp.cmpi .slt (BitVec.ofNat 32 y) 0#32 = 0#1 := by
    apply eq_zero_of_ne_one
    rw [StableHlo.Predicate.slt_iff_toNat (by rw [label_toNat y hy]; omega) (by decide)]
    exact Nat.not_lt_zero _
  rw [h0, select_zero]

/-- A label in range passes the test "at least 0 and at most 31999". -/
theorem label_inrange :
    IntOp.andi (IntOp.cmpi .sge (BitVec.ofNat 32 y) 0#32) (IntOp.cmpi .sle (BitVec.ofNat 32 y) 31999#32) = 1#1 := by
  rw [IntOp.andi_eq_one]
  constructor
  · rw [StableHlo.Predicate.sge_iff_toNat (by rw [label_toNat y hy]; omega) (by decide)]
    exact Nat.zero_le _
  · rw [StableHlo.Predicate.sle_iff_toNat (by rw [label_toNat y hy]; omega) (by decide), label_toNat y hy]
    show y ≤ 31999
    omega

/-- Read signed and clamped into the columns, the word of a label in range is the label. -/
theorem label_clamp : min (BitVec.ofNat 32 y).toInt.toNat (32000 - 1) = y := by
  rw [StableHlo.Predicate.toInt_ofNat_small y (by omega)]
  simp only [Int.toNat_natCast]
  omega

end Label

/-- The conjunction of the single bit `b` with the initial bit 1 over an axis of one coordinate is `b`. -/
theorem fold_andi_one (f : Fin 1 → BitVec 1) :
    (Finset.univ : Finset (Fin 1)).fold IntOp.andi 1#1 f = f 0 := by
  rw [show (Finset.univ : Finset (Fin 1)) = {0} from rfl, Finset.fold_singleton]
  show f 0 &&& 1#1 = f 0
  generalize f 0 = b
  revert b; decide

end Cert.Xent.RefLib

end
-- ==== Proof.RefValue.lean ====
/-
  The reference's result over real data: the log-softmax of the logits read entry by entry, its entry at the label
  (the label is in range, so the gather reads it and the out-of-range fill is never chosen), the two means, the loss.
-/
import proofs.«409617_j66133906423975_1_alg».proof.Proof.RefReadP
import proofs.«409617_j66133906423975_1_alg».proof.Proof.Data
import proofs.«409617_j66133906423975_1_alg».proof.Proof.Consts
import proofs.«409617_j66133906423975_1_alg».proof.Proof.RefLib
import Idealize.ShloMosaic.Lib.ValueIdx
import Idealize.ShloMosaic.Lib.ValueIdxRank1
import Idealize.ShloMosaic.Lib.ValueLayout
import Idealize.ShloMosaic.Lib.Pipeline.Value
import Idealize.ShloMosaic.PureOps.Ideal.Laws

noncomputable section

namespace Cert.ReferenceIdeal.XRef

open Idealize.ShloMosaic Idealize.ShloMosaic.ValueIdx Cert.ReferenceIdeal Cert.ReferenceIdeal.Gen Cert.Xent
open Cert.ReferenceIdeal.ReadP

section Stages

variable {X : FVec Ideal S4096x1024 .f32} {Wt : FVec Ideal S32000x1024 .f32} {Y : IVec S4096 32}

/-! ## The logits -/

/-- Entry (n, v) of the product is the real number `∑ k, x n k * w v k`: every factor is real, a product of reals is
    the real product and a finite sum of reals the real sum. -/
theorem v0_at (D : Data X Wt Y) (n : Fin 4096) (v : Fin 32000) :
    val_main_v0 (F := Ideal) X Wt (ix2 n v) = ((lg D.xa D.wa n v : ℝ) : EReal) := by
  rw [val_main_v0_apply]
  unfold lg
  rw [coe_sum]
  refine Finset.sum_congr rfl fun k _ => ?_
  have el : lidx_main_v0 (ix2 n v) k = ix2 n k := funext fun a => by
    match a with
    | ⟨0, _⟩ => rfl
    | ⟨1, _⟩ => rfl
  have er : ridx_main_v0 (ix2 n v) k = ix2 v k := funext fun a => by
    match a with
    | ⟨0, _⟩ => rfl
    | ⟨1, _⟩ => rfl
  rw [el, er, D.hX, D.hW, EReal.coe_mul]

/-! ## The log-softmax -/

/-- The row's maximum: the running maximum from `-∞` over the 32000 columns of row `n`. -/
theorem rowmax_at (D : Data X Wt Y) (n : Fin 4096) :
    val_main_call0_v0 (F := Ideal) X Wt (ix1 n) = ((vmax (lg D.xa D.wa n) : ℝ) : EReal) := by
  unfold val_main_call0_v0
  have h : S4096x32000.Reduces [1] S4096 := by decide
  rw [Host.reduce_eq_fold_single FloatOps.maximumf _ _ reducesTo_S4096x32000_S4096_d1 h h_S_]
  have hf : (val_main_v0 (F := Ideal) X Wt ∘ h.lift (ix1 n)) = fun k : Fin 32000 => ((lg D.xa D.wa n k : ℝ) : EReal) :=
    funext fun k => by
      show val_main_v0 (F := Ideal) X Wt (h.lift (ix1 n) k) = _
      rw [Cert.Xent.RefLib.lift_row h n k]
      exact v0_at D n ⟨k.val, k.isLt⟩
  rw [hf]
  show Finset.fold max (Ideal.ofBits .f32 0xFF800000#32) (fun k : Fin 32000 => ((lg D.xa D.wa n k : ℝ) : EReal)) Finset.univ = _
  rw [Cert.Xent.Consts.ofBits_neg_inf]
  exact foldmax_coe (lg D.xa D.wa n)

/-- The maximum with the broadcast `-∞` changes nothing. -/
theorem v2_at (D : Data X Wt Y) (n : Fin 4096) :
    val_main_call0_v2 (F := Ideal) X Wt (ix1 n) = ((vmax (lg D.xa D.wa n) : ℝ) : EReal) := by
  rw [val_main_call0_v2_apply, val_main_call0_v1_apply, val_main_call0_cst_0_apply, rowmax_at D n]
  show max (Ideal.ofBits .f32 0xFF800000#32) _ = _
  rw [Cert.Xent.Consts.ofBits_neg_inf]
  exact max_eq_right bot_le

theorem idx_col (n : Fin 4096) (v : Fin 32000) : idx_main_call0_v4 (ix2 n v) = ix2 n (0 : Fin 1) := funext fun a => by
  match a with
  | ⟨0, _⟩ => rfl
  | ⟨1, _⟩ => rfl

theorem idx_row (n : Fin 4096) : idx_main_call0_v3 (ix2 n (0 : Fin 1)) = ix1 n := funext fun a => by
  match a with
  | ⟨0, _⟩ => rfl

/-- The maximum broadcast along the row. -/
theorem v4_at (D : Data X Wt Y) (n : Fin 4096) (v : Fin 32000) :
    val_main_call0_v4 (F := Ideal) X Wt (ix2 n v) = ((vmax (lg D.xa D.wa n) : ℝ) : EReal) := by
  rw [val_main_call0_v4_apply, idx_col, val_main_call0_v3_apply, idx_row, v2_at D n]

/-- The logit less the row's maximum. -/
theorem v5_at (D : Data X Wt Y) (n : Fin 4096) (v : Fin 32000) :
    val_main_call0_v5 (F := Ideal) X Wt (ix2 n v) = ((lg D.xa D.wa n v - vmax (lg D.xa D.wa n) : ℝ) : EReal) := by
  rw [val_main_call0_v5_apply, v0_at D n v, v4_at D n v]
  exact (EReal.coe_sub _ _).symm

/-- Its exponential. -/
theorem v6_at (D : Data X Wt Y) (n : Fin 4096) (v : Fin 32000) :
    val_main_call0_v6 (F := Ideal) X Wt (ix2 n v)
      = ((Real.exp (lg D.xa D.wa n v - vmax (lg D.xa D.wa n)) : ℝ) : EReal) := by
  rw [val_main_call0_v6_apply, v5_at D n v, Ideal.hostUnary_exp_def, Ideal.exp_coe]

/-- The row's sum of exponentials: the initial value is 0. -/
theorem v7_at (D : Data X Wt Y) (n : Fin 4096) :
    val_main_call0_v7 (F := Ideal) X Wt (ix1 n)
      = ((∑ v : Fin 32000, Real.exp (lg D.xa D.wa n v - vmax (lg D.xa D.wa n)) : ℝ) : EReal) := by
  rw [val_main_call0_v7_apply, val_main_call0_cst_1_apply, Ideal.ofBits_def, Ideal.ofBits_zero_f32, zero_add, coe_sum]
  refine Finset.sum_congr rfl fun k _ => ?_
  have e : idx_main_call0_v7 (ix1 n) k = ix2 n k := funext fun a => by
    match a with
    | ⟨0, _⟩ => rfl
    | ⟨1, _⟩ => rfl
  rw [e, v6_at D n k]

/-- Its logarithm: the sum is positive. -/
theorem v9_at (D : Data X Wt Y) (n : Fin 4096) :
    val_main_call0_v9 (F := Ideal) X Wt (ix2 n (0 : Fin 1)) = ((lse (lg D.xa D.wa n) : ℝ) : EReal) := by
  have e : idx_main_call0_v8 (ix2 n (0 : Fin 1)) = ix1 n := funext fun a => by
    match a with
    | ⟨0, _⟩ => rfl
  rw [val_main_call0_v9_apply, val_main_call0_v8_apply, e, v7_at D n, Ideal.hostUnary_log_def, Ideal.log_coe,
    if_neg (not_le.2 (sumexp_pos (lg D.xa D.wa n)))]
  rfl

/-- Entry (n, v) of the log-softmax. -/
theorem v1_at (D : Data X Wt Y) (n : Fin 4096) (v : Fin 32000) :
    val_main_v1 (F := Ideal) X Wt (ix2 n v) = ((lsm (lg D.xa D.wa n) v : ℝ) : EReal) := by
  have e : idx_main_call0_v10 (ix2 n v) = ix2 n (0 : Fin 1) := funext fun a => by
    match a with
    | ⟨0, _⟩ => rfl
    | ⟨1, _⟩ => rfl
  rw [val_main_v1_apply, v5_at D n v, val_main_call0_v10_apply, e, v9_at D n]
  exact (EReal.coe_sub _ _).symm

/-! ## The entry at the label -/

/-- The labels as a column: row `n` holds the word of label `n`. -/
theorem y2_at (D : Data X Wt Y) (n : Fin 4096) :
    val_main_v2 (F := Ideal) Y (ix2 n (0 : Fin 1)) = BitVec.ofNat 32 (D.ya n).val := by
  have e : idx_main_v2 (ix2 n (0 : Fin 1)) = ix1 n := funext fun a => by
    match a with
    | ⟨0, _⟩ => rfl
  rw [val_main_v2_apply, e, D.hY]

/-- A label in range is not negative: the wrap-around of negative labels keeps it. -/
theorem c1v4_at (D : Data X Wt Y) (n : Fin 4096) :
    val_main_call1_v4 (F := Ideal) Y (ix2 n (0 : Fin 1)) = BitVec.ofNat 32 (D.ya n).val := by
  rw [val_main_call1_v4_apply, val_main_call1_v1_apply, val_main_call1_v3_apply, val_main_call1_v0_apply,
    val_main_call1_c_apply, val_main_call1_v2_apply, val_main_call1_c_0_apply, y2_at D n]
  exact Cert.Xent.RefLib.label_wrap _ (D.ya n).isLt

/-- The same word as the start index (n, 0, 0). -/
theorem c1v5_at (D : Data X Wt Y) (n : Fin 4096) :
    val_main_call1_v5 (F := Ideal) Y (ix3 n (0 : Fin 1) (0 : Fin 1)) = BitVec.ofNat 32 (D.ya n).val := by
  have e : idx_main_call1_v5 (ix3 n (0 : Fin 1) (0 : Fin 1)) = ix2 n (0 : Fin 1) := funext fun a => by
    match a with
    | ⟨0, _⟩ => exact Fin.ext (by show ((n.val * 1 + 0) * 1 + 0) / 1 = n.val; omega)
    | ⟨1, _⟩ => rfl
  rw [val_main_call1_v5_apply, e, c1v4_at D n]

/-- The test "at least 0 and at most 31999" holds at every row. -/
theorem c1v11_at (D : Data X Wt Y) (n : Fin 4096) :
    val_main_call1_v11 (F := Ideal) Y (ix3 n (0 : Fin 1) (0 : Fin 1)) = 1#1 := by
  rw [val_main_call1_v11_apply, val_main_call1_v7_apply, val_main_call1_v10_apply, c1v5_at D n,
    val_main_call1_v6_apply, val_main_call1_c_2_apply, val_main_call1_v9_apply, val_main_call1_v8_apply,
    val_main_call1_c_1_apply]
  exact Cert.Xent.RefLib.label_inrange _ (D.ya n).isLt

/-- Its conjunction over the last axis, which has one coordinate, from the initial bit 1. -/
theorem c1v12_at (D : Data X Wt Y) (n : Fin 4096) :
    val_main_call1_v12 (F := Ideal) Y (ix2 n (0 : Fin 1)) = 1#1 := by
  unfold val_main_call1_v12
  have h : S4096x1x1.Reduces [2] S4096x1 := by decide
  rw [Host.reduce_eq_fold_single IntOp.andi _ _ reducesTo_S4096x1x1_S4096x1_d2 h h_S_]
  refine (Cert.Xent.RefLib.fold_andi_one (fun k : Fin 1 => val_main_call1_v11 (F := Ideal) Y (h.lift (ix2 n (0 : Fin 1)) k))).trans ?_
  exact (congrArg (val_main_call1_v11 (F := Ideal) Y) (Cert.Xent.RefLib.lift_last h n 0 ⟨0, Nat.one_pos⟩)).trans
    (c1v11_at D n)

/-- The gather reads, in row `n`, the column the label names: the clamp does nothing to a label in range. -/
theorem c1v13_at (D : Data X Wt Y) (n : Fin 4096) :
    val_main_call1_v13 (F := Ideal) X Wt Y (ix2 n (0 : Fin 1)) = ((lsm (lg D.xa D.wa n) (D.ya n) : ℝ) : EReal) := by
  unfold val_main_call1_v13
  show Host.gather (Cert.Xent.RefLib.rowDims 4096 32000 gather_S4096x32000_S4096x1x1_S4096x1_n_1_0_0_1_2_11_wf)
    (val_main_v1 (F := Ideal) X Wt) (val_main_call1_v5 (F := Ideal) Y) (ix2 n (0 : Fin 1)) = _
  rw [Cert.Xent.RefLib.gather_row_apply (by decide)]
  have key : (⟨min (val_main_call1_v5 (F := Ideal) Y (ix3 n (0 : Fin 1) (0 : Fin 1))).toInt.toNat (32000 - 1),
      by omega⟩ : Fin 32000) = D.ya n :=
    Fin.ext (by
      show min (val_main_call1_v5 (F := Ideal) Y (ix3 n (0 : Fin 1) (0 : Fin 1))).toInt.toNat (32000 - 1) = (D.ya n).val
      rw [c1v5_at D n]
      exact Cert.Xent.RefLib.label_clamp _ (D.ya n).isLt)
  rw [key]
  exact v1_at D n (D.ya n)

/-- The in-range test chooses the gathered entry, never the fill. -/
theorem v3_at (D : Data X Wt Y) (n : Fin 4096) :
    val_main_v3 (F := Ideal) X Wt Y (ix2 n (0 : Fin 1)) = ((lsm (lg D.xa D.wa n) (D.ya n) : ℝ) : EReal) := by
  rw [val_main_v3_apply, c1v12_at D n, select_one, c1v13_at D n]

/-! ## The two sums -/

/-- The entries at the labels as a vector. -/
theorem v4_at' (D : Data X Wt Y) (n : Fin 4096) :
    val_main_v4 (F := Ideal) X Wt Y (ix1 n) = ((lsm (lg D.xa D.wa n) (D.ya n) : ℝ) : EReal) := by
  have e : idx_main_v4 (ix1 n) = ix2 n (0 : Fin 1) := funext fun a => by
    match a with
    | ⟨0, _⟩ => exact Fin.ext (by show n.val / 1 = n.val; omega)
    | ⟨1, _⟩ => rfl
  rw [val_main_v4_apply, e, v3_at D n]

/-- Their sum over the rows: the initial value is 0 and a rank-1 index is its coordinate. -/
theorem v5_sum (D : Data X Wt Y) (i : S_.Idx) :
    val_main_v5 (F := Ideal) X Wt Y i = ((∑ n : Fin 4096, lsm (lg D.xa D.wa n) (D.ya n) : ℝ) : EReal) := by
  rw [val_main_v5_apply, val_main_cst_apply, Ideal.ofBits_def, Ideal.ofBits_zero_f32, zero_add, coe_sum,
    ← Equiv.sum_comp (idxEquiv1 (n := 4096)).symm]
  refine Finset.sum_congr rfl fun n _ => ?_
  exact v4_at' D n

/-- The sum of the log-softmax over all entries, as the double sum over rows and columns. -/
theorem v9_sum (D : Data X Wt Y) (i : S_.Idx) :
    val_main_v9 (F := Ideal) X Wt i = ((∑ n : Fin 4096, ∑ v : Fin 32000, lsm (lg D.xa D.wa n) v : ℝ) : EReal) := by
  rw [val_main_v9_apply, val_main_cst_2_apply, Ideal.ofBits_def, Ideal.ofBits_zero_f32, zero_add, sum_idx2, coe_sum]
  refine Finset.sum_congr rfl fun n _ => ?_
  rw [coe_sum]
  refine Finset.sum_congr rfl fun v _ => ?_
  exact v1_at D n v

end Stages

/-! ## The loss -/

/-- The reference's result is the smoothed loss of the two means. -/
theorem ref_eq [Cert.ReferenceIdeal.Facts]
    (X : FVec Ideal S4096x1024 .f32) (Wt : FVec Ideal S32000x1024 .f32) (Y : IVec S4096 32) (D : Data X Wt Y) :
    Cert.ReferenceIdeal.ReadP.val_main_v12 (F := Ideal) X Wt Y = fun _ => lossE (meanNll D.xa D.wa D.ya) (meanLp D.xa D.wa) := by
  funext i
  rw [val_main_v12_apply, val_main_v8_apply, val_main_v7_apply, val_main_v6_apply, v5_sum D i, val_main_cst_0_apply,
    val_main_cst_1_apply, val_main_v11_apply, val_main_v10_apply, v9_sum D i, val_main_cst_3_apply, val_main_cst_4_apply]
  simp only [Ideal.ofBits_def, Ideal.hostDivf_def, Ideal.hostNegf_def, Ideal.negf_def, Ideal.mulf_def, Ideal.subf_def]
  rw [Cert.Xent.Consts.ofBits_4096, Cert.Xent.Consts.ofBits_131072000, Ideal.div_coe (by norm_num), Ideal.div_coe (by norm_num),
    ← EReal.coe_mul, ← EReal.coe_mul, ← EReal.coe_neg]
  unfold lossE
  have hA : -((∑ n : Fin 4096, lsm (lg D.xa D.wa n) (D.ya n)) * (1 / 4096)) = meanNll D.xa D.wa D.ya := by
    unfold meanNll; rw [mean_neg]; ring
  have hB : (∑ n : Fin 4096, ∑ v : Fin 32000, lsm (lg D.xa D.wa n) v) * (1 / 131072000) = meanLp D.xa D.wa := by
    unfold meanLp; rw [mean_all]; ring
  rw [hA, hB]

end Cert.ReferenceIdeal.XRef

end
-- ==== Proof.lean ====
/-
  The kernel computes the label-smoothed cross-entropy of the logits `x · Wᵀ` by an online softmax: per row it scans the
  32000 columns in 50 blocks, keeping the running maximum, the sum of exponentials relative to it, the sum of the logits
  and the logit at the label, and finishes each row with its negative log-likelihood and its sum of log-probabilities;
  two means and the smoothing weights give the loss. The reference takes the log-softmax of the whole logits, its entry
  at the label and its mean over all entries. Over real arguments with labels in range both results are the smoothed
  loss of the same two means (`Cert.Xent.lossE`): rescaling the sum of exponentials when the maximum moves keeps it equal
  to the sum relative to the new maximum, so the scan ends with the row's maximum and its sum of exponentials
  (`Cert.Xent.inv_last`), and a sum of 32000 equal terms is 32000 times the term.
  The three frames: the two kernel programs by their generated frame runs, the reference by its run read back.
-/
import proofs.«409617_j66133906423975_1_alg».proof.Defs
import proofs.«409617_j66133906423975_1_alg».proof.Proof.Gen.Kernel
import proofs.«409617_j66133906423975_1_alg».proof.Proof.Gen.Kernel.Skeleton
import proofs.«409617_j66133906423975_1_alg».proof.Proof.Gen.Kernel.Launch
import proofs.«409617_j66133906423975_1_alg».proof.Proof.Gen.Kernel.Points
import proofs.«409617_j66133906423975_1_alg».proof.Proof.Gen.Kernel.Frame
import proofs.«409617_j66133906423975_1_alg».proof.Proof.Gen.KernelIdeal
import proofs.«409617_j66133906423975_1_alg».proof.Proof.Gen.KernelIdeal.Skeleton
import proofs.«409617_j66133906423975_1_alg».proof.Proof.Gen.KernelIdeal.Launch
import proofs.«409617_j66133906423975_1_alg».proof.Proof.Gen.KernelIdeal.Points
import proofs.«409617_j66133906423975_1_alg».proof.Proof.Gen.KernelIdeal.Frame
import proofs.«409617_j66133906423975_1_alg».proof.Proof.Gen.ReferenceIdeal
import proofs.«409617_j66133906423975_1_alg».proof.Proof.Gen.Pre_finite_inputs
import proofs.«409617_j66133906423975_1_alg».proof.Proof.KRun
import proofs.«409617_j66133906423975_1_alg».proof.Proof.PreData
import proofs.«409617_j66133906423975_1_alg».proof.Proof.RefRun
import proofs.«409617_j66133906423975_1_alg».proof.Proof.RefValue
import Idealize.ShloMosaic.Adequacy
import Idealize.ShloMosaic.Init

noncomputable section

namespace Cert.Proof

open Idealize.ShloMosaic Idealize.SL.Sem Cert.Xent

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.XRun.run (F := Ideal) m ρ)

/-- Both programs end at the smoothed loss of the two means of the arguments' real data, which the precondition provides. -/
theorem algebraic : Cert.algebraic_KernelIdeal_ReferenceIdeal := by
  intro m ρ m' ρ' hpre hagree
  have D := fun c => Classical.choice (Cert.Xent.data_of_pre _ _ _ (hpre c))
  refine ⟨fun c => fun _ => lossE (meanNll (D c).xa (D c).wa (D c).ya) (meanLp (D c).xa (D c).wa),
    Cert.KernelIdeal.XV.run m ρ D, ?_⟩
  refine (θ_run Cert.ReferenceIdeal.defs _ _).mono (fun _ h c => ⟨(h c).1.trans ?_, (h c).2⟩)
    (Cert.ReferenceIdeal.XRun.run (F := Ideal) m' ρ')
  rw [(hagree c).1, (hagree c).2.1, (hagree c).2.2]
  exact Cert.ReferenceIdeal.XRef.ref_eq _ _ _ (D c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
